-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048x2048 : Shape := ⟨3, ![4, 2048, 2048]⟩
abbrev S512 : Shape := ⟨1, ![512]⟩
abbrev S512x512 : Shape := ⟨2, ![512, 512]⟩
abbrev S2048x128 : Shape := ⟨2, ![2048, 128]⟩
abbrev S128 : Shape := ⟨1, ![128]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S512x512 .f32) (main_arg8 : FVec F S2048x128 .f32) (main_arg9 : FVec F S128 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S2048x128 .f32 := Host.absf main_arg8
  let main_cst_14 : FVec F S_ .f32 := constant S_ .f32 0x7F800000#32
  let main_v40 : FVec F S2048x128 .f32 := broadcastInDim S2048x128 ![] bcast_S_S2048x128 main_cst_14
  let main_v41 : IVec S2048x128 1 := cmpf .olt main_v39 main_v40
  let main_c_15 : IVec S_ 1 := constantI S_ 1 1#1
  let main_v42 : IVec S_ 1 := (fun x v => Host.reduce IntOp.andi x v reducesTo_S2048x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512 .f32) (main_arg7 : FVec F S512x512 .f32) (main_arg8 : FVec F S2048x128 .f32) (main_arg9 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x512 .f32) (main_arg1 : FVec F S4x2048x2048 .f32) (main_arg2 : FVec F S512 .f32) (main_arg3 : FVec F S512 .f32) (main_arg4 : FVec F S512x512 .f32) (main_arg5 : FVec F S512 .f32) (main_arg6 : FVec F S512 .f32) (main_arg7 : FVec F S512x512 .f32) (main_arg8 : FVec F S2048x128 .f32) (main_arg9 : FVec F S128 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S4x2048x512 : Shape := ⟨3, ![4, 2048, 512]⟩
abbrev S4x2048x2048 : Shape := ⟨3, ![4, 2048, 2048]⟩
abbrev S512 : Shape := ⟨1, ![512]⟩
abbrev S512x512 : Shape := ⟨2, ![512, 512]⟩
abbrev S2048x128 : Shape := ⟨2, ![2048, 128]⟩
abbrev S128 : Shape := ⟨1, ![128]⟩
abbrev S1x512 : Shape := ⟨2, ![1, 512]⟩
abbrev S1x128 : Shape := ⟨2, ![1, 128]⟩
abbrev S4x1x128 : Shape := ⟨3, ![4, 1, 128]⟩
abbrev S4x128 : Shape := ⟨2, ![4, 128]⟩
abbrev S1x2048x512 : Shape := ⟨3, ![1, 2048, 512]⟩
abbrev S1x512x2048 : Shape := ⟨3, ![1, 512, 2048]⟩
abbrev S1x1x128 : Shape := ⟨3, ![1, 1, 128]⟩
abbrev S2048x512 : Shape := ⟨2, ![2048, 512]⟩
abbrev S2048x2048 : Shape := ⟨2, ![2048, 2048]⟩
abbrev S2048 : Shape := ⟨1, ![2048]⟩
abbrev S2048x1 : Shape := ⟨2, ![2048, 1]⟩
abbrev S512x2048 : Shape := ⟨2, ![512, 2048]⟩
abbrev S512x1 : Shape := ⟨2, ![512, 1]⟩
abbrev S1x2048 : Shape := ⟨2, ![1, 2048]⟩

abbrev nBuf : Space → Nat
  | .hbm => 17
  | .vmem => 17
  | .smem => 0
  | _ => 0

abbrev bufTy : (tb : Table) → Fin (tcTables nBuf tb) → BufTy
  | .hbm, ⟨0, _⟩ => ⟨S4x2048x512, .f32⟩
  | .hbm, ⟨1, _⟩ => ⟨S4x2048x2048, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S2048x128, .f32⟩
  | .hbm, ⟨9, _⟩ => ⟨S128, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x128, .f32⟩
  | .hbm, ⟨15, _⟩ => ⟨S4x1x128, .f32⟩
  | .hbm, ⟨16, _⟩ => ⟨S4x128, .f32⟩
  | .local _ .vmem, ⟨0, _⟩ => ⟨S1x2048x512, .f32⟩
  | .local _ .vmem, ⟨1, _⟩ => ⟨S1x2048x512, .f32⟩
  | .local _ .vmem, ⟨2, _⟩ => ⟨S1x512x2048, .f32⟩
  | .local _ .vmem, ⟨3, _⟩ => ⟨S1x512x2048, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S2048x128, .f32⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | .local _ .vmem, ⟨14, _⟩ => ⟨S2048x512, .bf16⟩
  | .local _ .vmem, ⟨15, _⟩ => ⟨S2048x512, .bf16⟩
  | .local _ .vmem, ⟨16, _⟩ => ⟨S2048x2048, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c512_i32 : BitVec 32 := 512#32
  let v0 : BitVec 32 := Scalar.muli arg1 c512_i32
  let v7 : Index := Scalar.indexCast v0
  let c0_3 : Index := 0#32
  ![v7.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v44 : Index := Scalar.indexCast v0
  let c0_19 : Index := 0#32
  ![v44.toNat, 0]
def k0_cond2 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_20 : BitVec 32 := 0#32
  let v50 : BitVec 1 := Scalar.cmpi .ne v49 c0_i32_20
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S512_S1x512 : S512.ShapeCasts S1x512
  shapeCasts_S128_S1x128 : S128.ShapeCasts S1x128
  shapeCasts_S4x1x128_S4x128 : S4x1x128.ShapeCasts S4x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  broadcasts_S2048x1_S2048x512 : S2048x1.Broadcasts S2048x512
  broadcasts_S1x512_S2048x512 : S1x512.Broadcasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  h_S512x2048 : 0 < S512x2048.numel
  shapeCasts_S512x2048_S512x2048 : S512x2048.ShapeCasts S512x2048
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  shapeCasts_S512x512_S512x512 : S512x512.ShapeCasts S512x512
  inb_S2048x2048_S2048x2048_0_0 : ∀ a, (![0, 0] : Fin 2 → Nat) a + S2048x2048.size a ≤ S2048x2048.size a
  h_S2048x2048 : 0 < S2048x2048.numel
  shapeCasts_S2048_S1x2048 : S2048.ShapeCasts S1x2048
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  dot_S2048x512_S512x512_S2048x512_1_0_0_1_n_n_wf : DotDims.WF S2048x512 S512x512 S2048x512 [1] [0] [0] [1] [] []
  dot_S512x2048_S2048x512_S512x512_1_0_0_1_n_n_wf : DotDims.WF S512x2048 S2048x512 S512x512 [1] [0] [0] [1] [] []
  dot_S512x512_S512x512_S512x512_1_0_0_1_n_n_wf : DotDims.WF S512x512 S512x512 S512x512 [1] [0] [0] [1] [] []
  dot_S2048x2048_S2048x512_S2048x512_1_0_0_1_n_n_wf : DotDims.WF S2048x2048 S2048x512 S2048x512 [1] [0] [0] [1] [] []
  dot_S1x2048_S2048x128_S1x128_1_0_0_1_n_n_wf : DotDims.WF S1x2048 S2048x128 S1x128 [1] [0] [0] [1] [] []
  hrank0 : 0 < grid0.rank
  k0_off1_inb : ∀ i : grid0.Coords, ∀ a, (k0_off1 i) a + S512x2048.size a ≤ S2048x2048.size a
  k0_off1_packedbf16 : ∀ i : grid0.Coords, (Rect.unit (s := S2048x2048) (k0_off1 i) S512x2048.size (k0_off1_inb i)).PackedRows (EltTy.packing .bf16)
  k0_off2_inb : ∀ i : grid0.Coords, ∀ a, (k0_off2 i) a + S512x512.size a ≤ S2048x512.size a
  k0_off2_packedbf16 : ∀ i : grid0.Coords, (Rect.unit (s := S2048x512) (k0_off2 i) S512x512.size (k0_off2_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x2048x2048.size a
  hwx0_1 : ∀ i : grid0.Coords, EltTy.bits .f32 = 32 ∨ (Rect.block (s := S4x2048x2048) S1x512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x128.size a
  hwx0_8 : ∀ i : grid0.Coords, EltTy.bits .f32 = 32 ∨ (Rect.block (s := S2048x128) S2048x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S4x1x128.size a
  hwx0_10 : ∀ i : grid0.Coords, EltTy.bits .f32 = 32 ∨ (Rect.block (s := S4x1x128) S1x1x128.size (cc0_transform_10 i) (hinb0_10 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v5) S1x1x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S4x2048x2048 : Shape := ⟨3, ![4, 2048, 2048]⟩
abbrev S512 : Shape := ⟨1, ![512]⟩
abbrev S512x512 : Shape := ⟨2, ![512, 512]⟩
abbrev S2048x128 : Shape := ⟨2, ![2048, 128]⟩
abbrev S128 : Shape := ⟨1, ![128]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x128 : Shape := ⟨2, ![4, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x2048, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S2048x128, .f32⟩
  | .hbm, ⟨9, _⟩ => ⟨S128, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .i32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x512, .f32⟩
  | .hbm, ⟨41, _⟩ => ⟨S4x2048x512, .f32⟩
  | .hbm, ⟨42, _⟩ => ⟨S1x1x512, .f32⟩
  | .hbm, ⟨43, _⟩ => ⟨S4x2048x512, .f32⟩
  | .hbm, ⟨44, _⟩ => ⟨S4x2048x512, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1, .f32⟩
  | .hbm, ⟨49, _⟩ => ⟨S4x2048x512, .f32⟩
  | .hbm, ⟨50, _⟩ => ⟨S4x2048x512, .f32⟩
  | .hbm, ⟨51, _⟩ => ⟨S1x1x512, .f32⟩
  | .hbm, ⟨52, _⟩ => ⟨S4x2048x512, .f32⟩
  | .hbm, ⟨53, _⟩ => ⟨S4x2048x512, .f32⟩
  | .hbm, ⟨54, _⟩ => ⟨S4x2048x512, .f32⟩
  | .hbm, ⟨55, _⟩ => ⟨S4x2048x512, .f32⟩
  | .hbm, ⟨56, _⟩ => ⟨S_, .f32⟩
  | .hbm, ⟨57, _⟩ => ⟨S4x2048x512, .f32⟩
  | .hbm, ⟨58, _⟩ => ⟨S4x2048x512, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S_, .i32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x512, .f32⟩
  | .hbm, ⟨73, _⟩ => ⟨S4x2048x512, .f32⟩
  | .hbm, ⟨74, _⟩ => ⟨S4x2048x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4x2048, .f32⟩
  | .hbm, ⟨80, _⟩ => ⟨S4x2048x1, .f32⟩
  | .hbm, ⟨81, _⟩ => ⟨S4x2048x1, .f32⟩
  | .hbm, ⟨82, _⟩ => ⟨S4x2048x1, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S4x2048x1, .f32⟩
  | .hbm, ⟨88, _⟩ => ⟨S4x2048x1, .f32⟩
  | .hbm, ⟨89, _⟩ => ⟨S4x2048x512, .f32⟩
  | .hbm, ⟨90, _⟩ => ⟨S4x2048x512, .f32⟩
  | .hbm, ⟨91, _⟩ => ⟨S1x1x512, .f32⟩
  | .hbm, ⟨92, _⟩ => ⟨S4x2048x512, .f32⟩
  | .hbm, ⟨93, _⟩ => ⟨S4x2048x512, .f32⟩
  | .hbm, ⟨94, _⟩ => ⟨S_, .f32⟩
  | .hbm, ⟨95, _⟩ => ⟨S4x2048x1, .f32⟩
  | .hbm, ⟨96, _⟩ => ⟨S4x2048x1, .f32⟩
  | .hbm, ⟨97, _⟩ => ⟨S4x2048x1, .f32⟩
  | .hbm, ⟨98, _⟩ => ⟨S4x2048x512, .f32⟩
  | .hbm, ⟨99, _⟩ => ⟨S4x2048x512, .f32⟩
  | .hbm, ⟨100, _⟩ => ⟨S1x1x512, .f32⟩
  | .hbm, ⟨101, _⟩ => ⟨S4x2048x512, .f32⟩
  | .hbm, ⟨102, _⟩ => ⟨S4x2048x512, .f32⟩
  | .hbm, ⟨103, _⟩ => ⟨S4x2048x512, .f32⟩
  | .hbm, ⟨104, _⟩ => ⟨S4x2048x512, .f32⟩
  | .hbm, ⟨105, _⟩ => ⟨S_, .f32⟩
  | .hbm, ⟨106, _⟩ => ⟨S4x2048x512, .f32⟩
  | .hbm, ⟨107, _⟩ => ⟨S4x2048x512, .f32⟩
  | .hbm, ⟨108, _⟩ => ⟨S_, .f32⟩
  | .hbm, ⟨109, _⟩ => ⟨S4x2048, .f32⟩
  | .hbm, ⟨110, _⟩ => ⟨S4x128, .f32⟩
  | .hbm, ⟨111, _⟩ => ⟨S1x128, .f32⟩
  | .hbm, ⟨112, _⟩ => ⟨S4x128, .f32⟩
  | .hbm, ⟨113, _⟩ => ⟨S4x128, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call1_cst : Ref sig .tc := ⟨.hbm, 56, rfl⟩
abbrev main_call1_v0 : Ref sig .tc := ⟨.hbm, 57, rfl⟩
abbrev main_v20 : Ref sig .tc := ⟨.hbm, 58, rfl⟩
abbrev main_cst_2 : Ref sig .tc := ⟨.hbm, 59, rfl⟩
abbrev main_v21 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_c_4 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_cst_3 : Ref sig .tc := ⟨.hbm, 83, rfl⟩
abbrev main_call2_v13 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_5 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_call3_cst : Ref sig .tc := ⟨.hbm, 105, rfl⟩
abbrev main_call3_v0 : Ref sig .tc := ⟨.hbm, 106, rfl⟩
abbrev main_v41 : Ref sig .tc := ⟨.hbm, 107, rfl⟩
abbrev main_cst_6 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩

abbrev nD : Nat := 1
abbrev τ : Topo := Topo.v7x

variable {F : FTy → Type} [FloatOps F]

class Facts₀ : Prop where
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  bcast_S_S4x2048x512 : S_.BroadcastsInDim S4x2048x512 (![] : Fin 0 → Fin S4x2048x512.rank)
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  dot_S4x2048x512_S512x512_S4x2048x512_2_0_01_1_n_n_wf : DotDims.WF S4x2048x512 S512x512 S4x2048x512 [2] [0] [0, 1] [1] [] []
  dot_S4x2048x2048_S4x2048x512_S4x2048x512_2_1_1_2_0_0_wf : DotDims.WF S4x2048x2048 S4x2048x512 S4x2048x512 [2] [1] [1] [2] [0] [0]
  dot_S4x2048_S2048x128_S4x128_1_0_0_1_n_n_wf : DotDims.WF S4x2048 S2048x128 S4x128 [1] [0] [0] [1] [] []

variable [Facts₀]

def dot_S4x2048x512_S512x512_S4x2048x512_2_0_01_1_n_n : DotDims S4x2048x512 S512x512 S4x2048x512 where
  lhsContracting := [2]
  rhsContracting := [0]
  lhsNonContracting := [0, 1]
  rhsNonContracting := [1]
  lhsBatch := []
  rhsBatch := []
  wf := dot_S4x2048x512_S512x512_S4x2048x512_2_0_01_1_n_n_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf
def dot_S4x2048_S2048x128_S4x128_1_0_0_1_n_n : DotDims S4x2048 S2048x128 S4x128 where
  lhsContracting := [1]
  rhsContracting := [0]
  lhsNonContracting := [0]
  rhsNonContracting := [1]
  lhsBatch := []
  rhsBatch := []
  wf := dot_S4x2048_S2048x128_S4x128_1_0_0_1_n_n_wf

class Facts : Prop extends Facts₀ where

variable [Facts]
-- ==== Proof.KI.Common.lean ====
/- What the three control cases of the kernel body share: the two branch conditions as functions of the grid
   point (the first slab of a graph, the last slab of a graph), where the windows are idle, the staging memrefs
   and scratch buffers the body is called with, and the region's invariant with the scratch buffers owned. -/
import proofs.«110909_g27616639713710_cont_9to1_58_32_alg».proof.Proof.Gen.KernelIdeal.Frame
import proofs.«110909_g27616639713710_cont_9to1_58_32_alg».proof.Proof.Gen.KernelIdeal.Skeleton
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The body's first branch: taken at the first slab of a graph (second grid coordinate 0). -/
abbrev condFirst (i : grid0.Coords) : Prop :=
  (Scalar.cmpi .ne (Scalar.extui (Scalar.cmpi .eq (BitVec.ofNat 32 (i 1).val) 0#32)) 0#32) = 1#1
theorem condFirst_iff : ∀ t : Fin cfg0.N, condFirst (grid0.coords t) ↔ t.val % 4 = 0 :=
  (by decide +kernel : ∀ t : Fin grid0.N, condFirst (grid0.coords t) ↔ t.val % 4 = 0)

/-- The body's second branch: taken at the last slab of a graph (second grid coordinate 3). -/
abbrev condLast (i : grid0.Coords) : Prop := k0_cond2 i = 1#1
theorem condLast_iff : ∀ t : Fin cfg0.N, condLast (grid0.coords t) ↔ t.val % 4 = 3 :=
  (by decide +kernel : ∀ t : Fin grid0.N, condLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The output window is idle exactly away from a graph's last slab, -/
theorem idle10_iff : ∀ t : Fin cfg0.N, cfg0.idle 10 (grid0.coords t) = true ↔ ¬ t.val % 4 = 3 :=
  (by decide +kernel : ∀ t : Fin grid0.N, cfg0.idle 10 (grid0.coords t) = true ↔ ¬ t.val % 4 = 3)
/-- and it is written back exactly at a graph's last slab. -/
theorem flush10_iff : ∀ t : Fin cfg0.N, (cfg0.win 10).flush t = true ↔ t.val % 4 = 3 := flush0_10

/-! ## The memrefs the body is called with -/

abbrev ms0 (t : Fin cfg0.N) : Memref sig .tc .vmem S1x2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x128 .f32 := win0_10.stage (cfg0.slots t 10)
abbrev hs10 (t : Fin cfg0.N) : (ms10 t).IsWhole := hstage0_10 ((cfg0.slots t 10).cast nbuf0_10)
/-- The three scratch buffers: the first layer's feature product, the second layer's, and the adjacency of the
    current graph. -/
abbrev sc13 : Memref sig .tc .vmem S2048x512 .bf16 := Memref.whole cc0_scratch0
abbrev sc14 : Memref sig .tc .vmem S2048x512 .bf16 := Memref.whole cc0_scratch1
abbrev sc15 : Memref sig .tc .vmem S2048x2048 .bf16 := Memref.whole cc0_scratch2

/-- The region's plain invariant with the scratch buffers as memrefs owned at some contents. -/
theorem PhiA_eq (c : Dev nD) :
    (Pipeline.ΦA spec0 c : sProp 𝕄)
      = iprop(iprop((∃ d, owns (c : Thread nD τ) sc13 fullShare d) ∗ (∃ d, owns (c : Thread nD τ) sc14 fullShare d) ∗ (∃ d, owns (c : Thread nD τ) sc15 fullShare d)) ∗ (∃ r, prngReg c r)) := by
  unfold Pipeline.ΦA; rw [scopedRest0_eq]; simp only [sc13, sc14, sc15, owns_whole]; try rfl

end Cert.KernelIdeal.Hand

end
-- ==== Proof.KI.Blocks.lean ====
/- The values the kernel computes, graph by graph, as functions of the blocks the pipeline stages: for graph b the
   first layer's feature product (from the graph's feature block, the first scale, shift and weight), for each of
   its four slabs of 512 adjacency rows the slab as kept in scratch and that slab's rows of the second layer's
   feature product, the two scratch buffers as they stand once all four slabs are written, and the read-out row. -/
import proofs.«110909_g27616639713710_cont_9to1_58_32_alg».proof.Proof.KI.Common
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The grid point of slab r of graph b. -/
def pt (b r : Fin 4) : Fin cfg0.N := ⟨4 * b.val + r.val, by have := b.isLt; have := r.isLt; rw [show cfg0.N = 16 from N_0]; omega⟩

/-- Graph b's feature block. -/
def X0 (b : Fin 4) : Vec F S1x2048x512 .f32 := iblk m c 0 (pt b 0)
/-- Slab r of graph b's adjacency. -/
def X1 (b r : Fin 4) : Vec F S1x512x2048 .f32 := iblk m c 1 (pt b r)
/-- The blocks every point sees alike: first scale and shift, first weight, second scale and shift, second weight,
    read-out weight and bias. -/
def X2 : Vec F S1x512 .f32 := iblk m c 2 (pt 0 0)
def X3 : Vec F S1x512 .f32 := iblk m c 3 (pt 0 0)
def X4 : Vec F S512x512 .f32 := iblk m c 4 (pt 0 0)
def X5 : Vec F S1x512 .f32 := iblk m c 5 (pt 0 0)
def X6 : Vec F S1x512 .f32 := iblk m c 6 (pt 0 0)
def X7 : Vec F S512x512 .f32 := iblk m c 7 (pt 0 0)
def X8 : Vec F S2048x128 .f32 := iblk m c 8 (pt 0 0)
def X9 : Vec F S1x128 .f32 := iblk m c 9 (pt 0 0)

/-- Graph b's first feature product: all 2048 rows. -/
def S1 (b : Fin 4) : Vec F S2048x512 .bf16 := k0_pay3 (X0 m c b) (X2 m c) (X3 m c) (X4 m c)
/-- Slab r of graph b's adjacency as the scratch keeps it. -/
def A15 (b r : Fin 4) : Vec F S512x2048 .bf16 := k0_pay5 (X1 m c b r)
/-- Rows of slab r of graph b's second feature product. -/
def S2 (b r : Fin 4) : Vec F S512x512 .bf16 :=
  k0_pay1 (k0_pay6 (X6 m c)) (k0_pay7 (X1 m c b r) (S1 m c b)) (k0_pay8 (X5 m c)) (X7 m c)

/-- The slab a row of 2048 lies in, and the row's place inside it. -/
def slabOf (n : Fin 2048) : Fin 4 := ⟨n.val / 512, by have := n.isLt; omega⟩
def inSlab (n : Fin 2048) : Fin 512 := ⟨n.val % 512, Nat.mod_lt _ (by decide)⟩

/-- Graph b's adjacency scratch once its four slabs are written. -/
def Full15 (b : Fin 4) : Vec F S2048x2048 .bf16 :=
  fun j => A15 m c b (slabOf (j 0)) (ValueIdx.ix2 (inSlab (j 0)) (j 1))
/-- Graph b's second feature product once its four slabs are written. -/
def Full14 (b : Fin 4) : Vec F S2048x512 .bf16 :=
  fun j => S2 m c b (slabOf (j 0)) (ValueIdx.ix2 (inSlab (j 0)) (j 1))
/-- Graph b's read-out row. -/
def Out (b : Fin 4) : Vec F S1x1x128 .f32 := k0_pay2 (Full15 m c b) (Full14 m c b) (X8 m c) (X9 m c)

end Cert.KernelIdeal.Hand

end
-- ==== Proof.KI.Data.lean ====
/- The pipeline's proof data for the one region: the arrays as the region finds them, each input window's block, the
   output block after a graph's last slab (the graph's read-out row), and the invariant carried from grid point to grid
   point: inside a graph, after r of its four slabs, the first scratch holds the graph's whole first feature product and
   the first 512 · r rows of the other two hold the graph's second feature product and adjacency; between graphs
   nothing is claimed of the scratch buffers. -/
import proofs.«110909_g27616639713710_cont_9to1_58_32_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The graph a grid point belongs to. -/
def graphOf (t : Fin cfg0.N) : Fin 4 := ⟨t.val / 4, by have h : t.val < 16 := lt_of_lt_of_eq t.isLt (show cfg0.N = 16 from N_0); omega⟩

/-- What the scratch buffers hold before grid point n. -/
def Inv (n : ℕ) (d13 : Vec F S2048x512 .bf16) (d14 : Vec F S2048x512 .bf16) (d15 : Vec F S2048x2048 .bf16) : Prop :=
  ∀ (b r : Fin 4), n = 4 * b.val + r.val → r.val ≠ 0 →
    d13 = S1 m c b
    ∧ (∀ j : S2048x512.Idx, (j 0).val < 512 * r.val → d14 j = Full14 m c b j)
    ∧ (∀ j : S2048x2048.Idx, (j 0).val < 512 * r.val → d15 j = Full15 m c b j)

/-- The region's invariant before grid point n: the three scratch buffers owned at contents the point-to-point
    invariant describes, and the generator register at some state. -/
def PhiS (n : ℕ) : sProp 𝕄 :=
  iprop(iprop(∃ d13 d14 d15, ⌜Inv m c n d13 d14 d15⌝ ∗ owns (c : Thread nD τ) sc13 fullShare d13 ∗ owns (c : Thread nD τ) sc14 fullShare d14 ∗ owns (c : Thread nD τ) sc15 fullShare d15) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Out m c (graphOf t)
  Φ t := PhiS m c t.val
  q _ := fullShare
  owed _ := 0

theorem A_eq (c : Dev nD) (w : Fin cfg0.W) : (dats m 0 c).A w = V m c (Pipeline.arrRef spec0 w) := by
  dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = iblk m c 6 t := by dsimp only [dats]
theorem after7 (t : Fin cfg0.N) : (dats m 0 c).after 7 t = iblk m c 7 t := by dsimp only [dats]
theorem after8 (t : Fin cfg0.N) : (dats m 0 c).after 8 t = iblk m c 8 t := by dsimp only [dats]
theorem after9 (t : Fin cfg0.N) : (dats m 0 c).after 9 t = iblk m c 9 t := by dsimp only [dats]
theorem after10 (t : Fin cfg0.N) : (dats m 0 c).after 10 t = Out m c (graphOf t) := by dsimp only [dats]

theorem before0 (t : Fin cfg0.N) (d) : (dats m 0 c).before 0 t d = iblk m c 0 t := before0_0_of m (dats m 0 c) (A_eq m c 0) (after0 m c) t d
theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d
theorem before3 (t : Fin cfg0.N) (d) : (dats m 0 c).before 3 t d = iblk m c 3 t := before0_3_of m (dats m 0 c) (A_eq m c 3) (after3 m c) t d
theorem before4 (t : Fin cfg0.N) (d) : (dats m 0 c).before 4 t d = iblk m c 4 t := before0_4_of m (dats m 0 c) (A_eq m c 4) (after4 m c) t d
theorem before5 (t : Fin cfg0.N) (d) : (dats m 0 c).before 5 t d = iblk m c 5 t := before0_5_of m (dats m 0 c) (A_eq m c 5) (after5 m c) t d
theorem before6 (t : Fin cfg0.N) (d) : (dats m 0 c).before 6 t d = iblk m c 6 t := before0_6_of m (dats m 0 c) (A_eq m c 6) (after6 m c) t d
theorem before7 (t : Fin cfg0.N) (d) : (dats m 0 c).before 7 t d = iblk m c 7 t := before0_7_of m (dats m 0 c) (A_eq m c 7) (after7 m c) t d
theorem before8 (t : Fin cfg0.N) (d) : (dats m 0 c).before 8 t d = iblk m c 8 t := before0_8_of m (dats m 0 c) (A_eq m c 8) (after8 m c) t d
theorem before9 (t : Fin cfg0.N) (d) : (dats m 0 c).before 9 t d = iblk m c 9 t := before0_9_of m (dats m 0 c) (A_eq m c 9) (after9 m c) t d

end Cert.KernelIdeal.Hand

end
-- ==== Proof.KI.BodyInv.lean ====
/- The point-to-point invariant of the three scratch buffers, as pure statements: what a scratch buffer reads back to
   after one slab of 512 rows is stored over what it held; that the first slab of a graph establishes the invariant,
   that a middle slab carries it one slab further, that after the last slab both buffers hold the graph's whole second
   feature product and adjacency, and that the row then stored is the graph's read-out row. -/
import proofs.«110909_g27616639713710_cont_9to1_58_32_alg».proof.Proof.KI.Data
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The second-product scratch after the slab at grid point i is stored over contents s14. -/
def new14 (a14 : Memref sig .tc .vmem S2048x512 .bf16) (ha14 : a14.IsWhole) (i : grid0.Coords) (s14 : Vec F S2048x512 .bf16)
    (P : Vec F S512x512 .bf16) : Vec F S2048x512 .bf16 :=
  a14.view.read (Elt F) (a14.view.writes (Elt F) (ha14.unread s14) [⟨Rect.unit (k0_off2 i) S512x512.size (k0_off2_inb i), P⟩])

/-- The adjacency scratch after the slab at grid point i is stored over contents s15. -/
def new15 (a15 : Memref sig .tc .vmem S2048x2048 .bf16) (ha15 : a15.IsWhole) (i : grid0.Coords) (s15 : Vec F S2048x2048 .bf16)
    (P : Vec F S512x2048 .bf16) : Vec F S2048x2048 .bf16 :=
  a15.view.read (Elt F) (a15.view.writes (Elt F) (ha15.unread s15) [⟨Rect.unit (k0_off1 i) S512x2048.size (k0_off1_inb i), P⟩])

/-- The body's four stored values at grid point t, from the point's blocks. -/
def P13 (t : Fin cfg0.N) : Vec F S2048x512 .bf16 := k0_pay3 (iblk m c 0 t) (iblk m c 2 t) (iblk m c 3 t) (iblk m c 4 t)
def P15 (t : Fin cfg0.N) : Vec F S512x2048 .bf16 := k0_pay5 (iblk m c 1 t)
def P14 (t : Fin cfg0.N) (s13 : Vec F S2048x512 .bf16) : Vec F S512x512 .bf16 :=
  k0_pay1 (k0_pay6 (iblk m c 6 t)) (k0_pay7 (iblk m c 1 t) s13) (k0_pay8 (iblk m c 5 t)) (iblk m c 7 t)
def P12 (t : Fin cfg0.N) (d15 : Vec F S2048x2048 .bf16) (d14 : Vec F S2048x512 .bf16) : Vec F S1x1x128 .f32 :=
  k0_pay2 d15 d14 (iblk m c 8 t) (iblk m c 9 t)

open Idealize.ShloMosaic.ValueIdx

/-- The slab offsets in closed form: at grid point t both scratch stores start at row 512 · (t mod 4), column 0. -/
theorem off2_closed : ∀ t : Fin grid0.N, k0_off2 (grid0.coords t) 0 = 512 * (t.val % 4) ∧ k0_off2 (grid0.coords t) 1 = 0 := by decide +kernel
theorem off1_closed : ∀ t : Fin grid0.N, k0_off1 (grid0.coords t) 0 = 512 * (t.val % 4) ∧ k0_off1 (grid0.coords t) 1 = 0 := by decide +kernel

theorem off2_eq (t : Fin grid0.N) : k0_off2 (grid0.coords t) = ![512 * (t.val % 4), 0] := by
  funext a; fin_cases a
  · exact (off2_closed t).1
  · exact (off2_closed t).2
theorem off1_eq (t : Fin grid0.N) : k0_off1 (grid0.coords t) = ![512 * (t.val % 4), 0] := by
  funext a; fin_cases a
  · exact (off1_closed t).1
  · exact (off1_closed t).2

/-- A row of the stored slab reads the payload at the row's place in the slab. -/
theorem new14_in (a14 : Memref sig .tc .vmem S2048x512 .bf16) (ha14 : a14.IsWhole) (t : Fin grid0.N) (s14 : Vec F S2048x512 .bf16)
    (P : Vec F S512x512 .bf16) (n : Fin 2048) (q : Fin 512) (k : Fin 512) (h : n.val = 512 * (t.val % 4) + k.val) :
    new14 a14 ha14 (grid0.coords t) s14 P (ix2 n q) = P (ix2 k q) := by
  unfold new14
  exact View.read_writes_cons_unit_of_mem a14.view _ (k0_off2_inb _) P [] (ix2 n q) (ix2 k q) (off2_eq t) (by
    intro a; fin_cases a
    · exact h
    · show q.val = 0 + q.val; omega)

/-- A row outside the stored slab reads what the buffer held. -/
theorem new14_out (a14 : Memref sig .tc .vmem S2048x512 .bf16) (ha14 : a14.IsWhole) (t : Fin grid0.N) (s14 : Vec F S2048x512 .bf16)
    (P : Vec F S512x512 .bf16) (n : Fin 2048) (q : Fin 512) (h : n.val < 512 * (t.val % 4) ∨ 512 * (t.val % 4) + 512 ≤ n.val) :
    new14 a14 ha14 (grid0.coords t) s14 P (ix2 n q) = s14 (ix2 n q) := by
  unfold new14
  rw [View.read_writes_cons_unit_of_not_mem a14.view _ (k0_off2_inb _) P [] (ix2 n q) (off2_eq t) 0 h,
    View.writes_nil, ha14.read_unread]

theorem new15_in (a15 : Memref sig .tc .vmem S2048x2048 .bf16) (ha15 : a15.IsWhole) (t : Fin grid0.N) (s15 : Vec F S2048x2048 .bf16)
    (P : Vec F S512x2048 .bf16) (n : Fin 2048) (q : Fin 2048) (k : Fin 512) (h : n.val = 512 * (t.val % 4) + k.val) :
    new15 a15 ha15 (grid0.coords t) s15 P (ix2 n q) = P (ix2 k q) := by
  unfold new15
  exact View.read_writes_cons_unit_of_mem a15.view _ (k0_off1_inb _) P [] (ix2 n q) (ix2 k q) (off1_eq t) (by
    intro a; fin_cases a
    · exact h
    · show q.val = 0 + q.val; omega)

theorem new15_out (a15 : Memref sig .tc .vmem S2048x2048 .bf16) (ha15 : a15.IsWhole) (t : Fin grid0.N) (s15 : Vec F S2048x2048 .bf16)
    (P : Vec F S512x2048 .bf16) (n : Fin 2048) (q : Fin 2048) (h : n.val < 512 * (t.val % 4) ∨ 512 * (t.val % 4) + 512 ≤ n.val) :
    new15 a15 ha15 (grid0.coords t) s15 P (ix2 n q) = s15 (ix2 n q) := by
  unfold new15
  rw [View.read_writes_cons_unit_of_not_mem a15.view _ (k0_off1_inb _) P [] (ix2 n q) (off1_eq t) 0 h,
    View.writes_nil, ha15.read_unread]

/-- The first window's block index depends on the graph alone. -/
theorem idx_graph0 : ∀ t : Fin cfg0.N, ∀ a, (cfg0.win 0).index t a = (cfg0.win 0).index (pt (graphOf t) 0) a := by decide +kernel

/-- The grid point of slab t mod 4 of t's graph is t. -/
theorem pt_graphOf (t : Fin cfg0.N) (h : t.val % 4 < 4) : pt (graphOf t) ⟨t.val % 4, h⟩ = t :=
  Fin.ext (by show 4 * (t.val / 4) + t.val % 4 = t.val; omega)

/-- The feature block at a point is its graph's: the two reads go through the same elements of the array. -/
theorem iblk0_graph (t : Fin cfg0.N) : iblk m c 0 t = X0 m c (graphOf t) := by
  unfold X0 iblk
  funext y
  rw [View.read_apply, View.read_apply]
  show _root_.cast _ (V m c (Pipeline.arrRef spec0 0) ((cfg0.win 0).arr.view.emb (((cfg0.win 0).rect t).emb _)))
    = _root_.cast _ (V m c (Pipeline.arrRef spec0 0) ((cfg0.win 0).arr.view.emb (((cfg0.win 0).rect (pt (graphOf t) 0)).emb _)))
  congr 3
  funext a; apply Fin.ext
  rw [Rect.emb_apply, Rect.emb_apply]
  show (cfg0.win 0).index t a * (cfg0.win 0).size a + 1 * (y a).val
    = (cfg0.win 0).index (pt (graphOf t) 0) a * (cfg0.win 0).size a + 1 * (y a).val
  rw [idx_graph0 t a]

/-- The adjacency block at a point is its slab's. -/
theorem iblk1_slab (t : Fin cfg0.N) (h : t.val % 4 < 4) : iblk m c 1 t = X1 m c (graphOf t) ⟨t.val % 4, h⟩ := by
  unfold X1; rw [pt_graphOf t h]

/-- The other eight windows' blocks are the same at every point. -/
theorem iblk2_const (t : Fin cfg0.N) : iblk m c 2 t = X2 m c := by
  unfold X2 iblk
  funext y
  rw [View.read_apply, View.read_apply]
  show _root_.cast _ (V m c (Pipeline.arrRef spec0 2) ((cfg0.win 2).arr.view.emb (((cfg0.win 2).rect t).emb _)))
    = _root_.cast _ (V m c (Pipeline.arrRef spec0 2) ((cfg0.win 2).arr.view.emb (((cfg0.win 2).rect (pt 0 0)).emb _)))
  congr 3
theorem iblk3_const (t : Fin cfg0.N) : iblk m c 3 t = X3 m c := by
  unfold X3 iblk
  funext y
  rw [View.read_apply, View.read_apply]
  show _root_.cast _ (V m c (Pipeline.arrRef spec0 3) ((cfg0.win 3).arr.view.emb (((cfg0.win 3).rect t).emb _)))
    = _root_.cast _ (V m c (Pipeline.arrRef spec0 3) ((cfg0.win 3).arr.view.emb (((cfg0.win 3).rect (pt 0 0)).emb _)))
  congr 3
theorem iblk4_const (t : Fin cfg0.N) : iblk m c 4 t = X4 m c := by
  unfold X4 iblk
  funext y
  rw [View.read_apply, View.read_apply]
  show _root_.cast _ (V m c (Pipeline.arrRef spec0 4) ((cfg0.win 4).arr.view.emb (((cfg0.win 4).rect t).emb _)))
    = _root_.cast _ (V m c (Pipeline.arrRef spec0 4) ((cfg0.win 4).arr.view.emb (((cfg0.win 4).rect (pt 0 0)).emb _)))
  congr 3
theorem iblk5_const (t : Fin cfg0.N) : iblk m c 5 t = X5 m c := by
  unfold X5 iblk
  funext y
  rw [View.read_apply, View.read_apply]
  show _root_.cast _ (V m c (Pipeline.arrRef spec0 5) ((cfg0.win 5).arr.view.emb (((cfg0.win 5).rect t).emb _)))
    = _root_.cast _ (V m c (Pipeline.arrRef spec0 5) ((cfg0.win 5).arr.view.emb (((cfg0.win 5).rect (pt 0 0)).emb _)))
  congr 3
theorem iblk6_const (t : Fin cfg0.N) : iblk m c 6 t = X6 m c := by
  unfold X6 iblk
  funext y
  rw [View.read_apply, View.read_apply]
  show _root_.cast _ (V m c (Pipeline.arrRef spec0 6) ((cfg0.win 6).arr.view.emb (((cfg0.win 6).rect t).emb _)))
    = _root_.cast _ (V m c (Pipeline.arrRef spec0 6) ((cfg0.win 6).arr.view.emb (((cfg0.win 6).rect (pt 0 0)).emb _)))
  congr 3
theorem iblk7_const (t : Fin cfg0.N) : iblk m c 7 t = X7 m c := by
  unfold X7 iblk
  funext y
  rw [View.read_apply, View.read_apply]
  show _root_.cast _ (V m c (Pipeline.arrRef spec0 7) ((cfg0.win 7).arr.view.emb (((cfg0.win 7).rect t).emb _)))
    = _root_.cast _ (V m c (Pipeline.arrRef spec0 7) ((cfg0.win 7).arr.view.emb (((cfg0.win 7).rect (pt 0 0)).emb _)))
  congr 3
theorem iblk8_const (t : Fin cfg0.N) : iblk m c 8 t = X8 m c := by
  unfold X8 iblk
  funext y
  rw [View.read_apply, View.read_apply]
  show _root_.cast _ (V m c (Pipeline.arrRef spec0 8) ((cfg0.win 8).arr.view.emb (((cfg0.win 8).rect t).emb _)))
    = _root_.cast _ (V m c (Pipeline.arrRef spec0 8) ((cfg0.win 8).arr.view.emb (((cfg0.win 8).rect (pt 0 0)).emb _)))
  congr 3
theorem iblk9_const (t : Fin cfg0.N) : iblk m c 9 t = X9 m c := by
  unfold X9 iblk
  funext y
  rw [View.read_apply, View.read_apply]
  show _root_.cast _ (V m c (Pipeline.arrRef spec0 9) ((cfg0.win 9).arr.view.emb (((cfg0.win 9).rect t).emb _)))
    = _root_.cast _ (V m c (Pipeline.arrRef spec0 9) ((cfg0.win 9).arr.view.emb (((cfg0.win 9).rect (pt 0 0)).emb _)))
  congr 3
/-- The stored values at a point, in terms of its graph's blocks. -/
theorem P13_eq (t : Fin cfg0.N) : P13 m c t = S1 m c (graphOf t) := by
  unfold P13 S1; rw [iblk0_graph, iblk2_const, iblk3_const, iblk4_const]
theorem P14_eq (t : Fin cfg0.N) (h : t.val % 4 < 4) : P14 m c t (S1 m c (graphOf t)) = S2 m c (graphOf t) ⟨t.val % 4, h⟩ := by
  unfold P14 S2; rw [iblk6_const, iblk1_slab m c t h, iblk5_const, iblk7_const]
theorem P15_eq (t : Fin cfg0.N) (h : t.val % 4 < 4) : P15 m c t = A15 m c (graphOf t) ⟨t.val % 4, h⟩ := by
  unfold P15 A15; rw [iblk1_slab m c t h]

/-- On the rows of the slab stored at point t the second-product scratch holds the graph's full buffer, once the first
    scratch holds the graph's first product. -/
theorem new14_slab (t : Fin cfg0.N) (a14 : Memref sig .tc .vmem S2048x512 .bf16) (ha14 : a14.IsWhole)
    (d14 s13 : Vec F S2048x512 .bf16) (hs13 : s13 = S1 m c (graphOf t)) (n : Fin 2048) (q : Fin 512)
    (h : 512 * (t.val % 4) ≤ n.val ∧ n.val < 512 * (t.val % 4) + 512) :
    new14 a14 ha14 (grid0.coords t) d14 (P14 m c t s13) (ix2 n q) = Full14 m c (graphOf t) (ix2 n q) := by
  subst hs13
  have h4 : t.val % 4 < 4 := Nat.mod_lt _ (by decide)
  rw [new14_in a14 ha14 t d14 _ n q (inSlab n) (by show n.val = 512 * (t.val % 4) + n.val % 512; omega), P14_eq m c t h4]
  show _ = S2 m c (graphOf t) (slabOf n) (ix2 (inSlab n) q)
  have hs : slabOf n = ⟨t.val % 4, h4⟩ := Fin.ext (by show n.val / 512 = t.val % 4; omega)
  rw [hs]

theorem new15_slab (t : Fin cfg0.N) (a15 : Memref sig .tc .vmem S2048x2048 .bf16) (ha15 : a15.IsWhole)
    (d15 : Vec F S2048x2048 .bf16) (n : Fin 2048) (q : Fin 2048)
    (h : 512 * (t.val % 4) ≤ n.val ∧ n.val < 512 * (t.val % 4) + 512) :
    new15 a15 ha15 (grid0.coords t) d15 (P15 m c t) (ix2 n q) = Full15 m c (graphOf t) (ix2 n q) := by
  have h4 : t.val % 4 < 4 := Nat.mod_lt _ (by decide)
  rw [new15_in a15 ha15 t d15 _ n q (inSlab n) (by show n.val = 512 * (t.val % 4) + n.val % 512; omega), P15_eq m c t h4]
  show _ = A15 m c (graphOf t) (slabOf n) (ix2 (inSlab n) q)
  have hs : slabOf n = ⟨t.val % 4, h4⟩ := Fin.ext (by show n.val / 512 = t.val % 4; omega)
  rw [hs]

/-- If the rows below the slab stored at point t already hold the graph's full buffer, then after the store every row up
    to the end of that slab does. -/
theorem new14_rows (t : Fin cfg0.N) (a14 : Memref sig .tc .vmem S2048x512 .bf16) (ha14 : a14.IsWhole)
    (d14 s13 : Vec F S2048x512 .bf16) (hs13 : s13 = S1 m c (graphOf t))
    (hold : ∀ j : S2048x512.Idx, (j 0).val < 512 * (t.val % 4) → d14 j = Full14 m c (graphOf t) j)
    (j : S2048x512.Idx) (hj : (j 0).val < 512 * (t.val % 4) + 512) :
    new14 a14 ha14 (grid0.coords t) d14 (P14 m c t s13) j = Full14 m c (graphOf t) j := by
  obtain ⟨n, q, rfl⟩ : ∃ (n : Fin 2048) (q : Fin 512), j = ix2 n q := ⟨j 0, j 1, eq_ix2 j⟩
  have hj' : n.val < 512 * (t.val % 4) + 512 := hj
  by_cases hlt : n.val < 512 * (t.val % 4)
  · rw [new14_out a14 ha14 t d14 _ n q (Or.inl hlt)]; exact hold _ hlt
  · exact new14_slab m c t a14 ha14 d14 s13 hs13 n q ⟨by omega, hj'⟩

theorem new15_rows (t : Fin cfg0.N) (a15 : Memref sig .tc .vmem S2048x2048 .bf16) (ha15 : a15.IsWhole)
    (d15 : Vec F S2048x2048 .bf16)
    (hold : ∀ j : S2048x2048.Idx, (j 0).val < 512 * (t.val % 4) → d15 j = Full15 m c (graphOf t) j)
    (j : S2048x2048.Idx) (hj : (j 0).val < 512 * (t.val % 4) + 512) :
    new15 a15 ha15 (grid0.coords t) d15 (P15 m c t) j = Full15 m c (graphOf t) j := by
  obtain ⟨n, q, rfl⟩ : ∃ (n : Fin 2048) (q : Fin 2048), j = ix2 n q := ⟨j 0, j 1, eq_ix2 j⟩
  have hj' : n.val < 512 * (t.val % 4) + 512 := hj
  by_cases hlt : n.val < 512 * (t.val % 4)
  · rw [new15_out a15 ha15 t d15 _ n q (Or.inl hlt)]; exact hold _ hlt
  · exact new15_slab m c t a15 ha15 d15 n q ⟨by omega, hj'⟩

/-- A whole-buffer store reads back as what was stored. -/
theorem new13_whole (a13 : Memref sig .tc .vmem S2048x512 .bf16) (ha13 : a13.IsWhole) (s13 P : Vec F S2048x512 .bf16) :
    a13.view.read (Elt F) (a13.view.writes (Elt F) (ha13.unread s13)
      [⟨Rect.unit ![0, 0] S2048x512.size inb_S2048x512_S2048x512_0_0, P⟩]) = P := by
  funext y
  exact View.read_writes_cons_unit_of_mem a13.view _ inb_S2048x512_S2048x512_0_0 P [] y y rfl
    (by intro a; fin_cases a <;> exact (Nat.zero_add _).symm)

/-- The output block stored whole reads back as what was stored. -/
theorem out_whole (a12 : Memref sig .tc .vmem S1x1x128 .f32) (f : a12.view.ty.Contents (Elt F)) (P : Vec F S1x1x128 .f32) :
    a12.view.read (Elt F) (a12.view.writes (Elt F) f
      [⟨Rect.unit ![0, 0, 0] S1x1x128.size inb_S1x1x128_S1x1x128_0_0_0, P⟩]) = P := by
  funext y
  exact View.read_writes_cons_unit_of_mem a12.view f inb_S1x1x128_S1x1x128_0_0_0 P [] y y rfl
    (by intro a; fin_cases a <;> exact (Nat.zero_add _).symm)

/-- Between graphs nothing is claimed. -/
theorem inv_zero_mod (n : ℕ) (h : n % 4 = 0) (d13 d14 : Vec F S2048x512 .bf16) (d15 : Vec F S2048x2048 .bf16) :
    Inv m c n d13 d14 d15 := by
  unfold Inv
  intro b r hn hr
  exfalso
  have := r.isLt
  omega

/-- The first slab of a graph establishes the invariant. -/
theorem inv_first (t : Fin cfg0.N) (h : t.val % 4 = 0)
    (a14 : Memref sig .tc .vmem S2048x512 .bf16) (ha14 : a14.IsWhole) (a15 : Memref sig .tc .vmem S2048x2048 .bf16) (ha15 : a15.IsWhole)
    (d14 : Vec F S2048x512 .bf16) (d15 : Vec F S2048x2048 .bf16) :
    Inv m c (t.val + 1) (P13 m c t) (new14 a14 ha14 (grid0.coords t) d14 (P14 m c t (P13 m c t)))
      (new15 a15 ha15 (grid0.coords t) d15 (P15 m c t)) := by
  unfold Inv
  intro b r hn hr
  have hN : t.val < 16 := lt_of_lt_of_eq t.isLt (show cfg0.N = 16 from N_0)
  have hb : b = graphOf t := Fin.ext (by show b.val = t.val / 4; have := r.isLt; omega)
  have hr1 : 512 * r.val = 512 * (t.val % 4) + 512 := by have := r.isLt; have := b.isLt; omega
  subst hb
  refine ⟨P13_eq m c t, fun j hj => ?_, fun j hj => ?_⟩
  · exact new14_rows m c t a14 ha14 d14 _ (P13_eq m c t) (fun j' hj' => absurd hj' (by omega)) j (by omega)
  · exact new15_rows m c t a15 ha15 d15 (fun j' hj' => absurd hj' (by omega)) j (by omega)

/-- A middle slab carries the invariant one slab further. -/
theorem inv_mid (t : Fin cfg0.N) (h0 : ¬ t.val % 4 = 0) (h1 : ¬ t.val % 4 = 3)
    (a14 : Memref sig .tc .vmem S2048x512 .bf16) (ha14 : a14.IsWhole) (a15 : Memref sig .tc .vmem S2048x2048 .bf16) (ha15 : a15.IsWhole)
    (d13 d14 : Vec F S2048x512 .bf16) (d15 : Vec F S2048x2048 .bf16) (hI : Inv m c t.val d13 d14 d15) :
    Inv m c (t.val + 1) d13 (new14 a14 ha14 (grid0.coords t) d14 (P14 m c t d13))
      (new15 a15 ha15 (grid0.coords t) d15 (P15 m c t)) := by
  unfold Inv
  intro b r hn hr
  have hN : t.val < 16 := lt_of_lt_of_eq t.isLt (show cfg0.N = 16 from N_0)
  have h4 : t.val % 4 < 4 := Nat.mod_lt _ (by decide)
  have hb : b = graphOf t := Fin.ext (by show b.val = t.val / 4; have := r.isLt; omega)
  have hr1 : 512 * r.val = 512 * (t.val % 4) + 512 := by have := r.isLt; have := b.isLt; omega
  subst hb
  obtain ⟨h13, h14, h15⟩ := hI (graphOf t) ⟨t.val % 4, h4⟩
    (by show t.val = 4 * (t.val / 4) + t.val % 4; omega) (by show t.val % 4 ≠ 0; exact h0)
  refine ⟨h13, fun j hj => ?_, fun j hj => ?_⟩
  · exact new14_rows m c t a14 ha14 d14 d13 h13 h14 j (by omega)
  · exact new15_rows m c t a15 ha15 d15 h15 j (by omega)

/-- After the last slab both buffers hold the graph's whole second feature product and adjacency. -/
theorem last_full (t : Fin cfg0.N) (h : t.val % 4 = 3)
    (a14 : Memref sig .tc .vmem S2048x512 .bf16) (ha14 : a14.IsWhole) (a15 : Memref sig .tc .vmem S2048x2048 .bf16) (ha15 : a15.IsWhole)
    (d13 d14 : Vec F S2048x512 .bf16) (d15 : Vec F S2048x2048 .bf16) (hI : Inv m c t.val d13 d14 d15) :
    new14 a14 ha14 (grid0.coords t) d14 (P14 m c t d13) = Full14 m c (graphOf t)
      ∧ new15 a15 ha15 (grid0.coords t) d15 (P15 m c t) = Full15 m c (graphOf t) := by
  have h4 : t.val % 4 < 4 := Nat.mod_lt _ (by decide)
  obtain ⟨h13, h14, h15⟩ := hI (graphOf t) ⟨t.val % 4, h4⟩
    (by show t.val = 4 * (t.val / 4) + t.val % 4; omega) (by show t.val % 4 ≠ 0; omega)
  refine ⟨funext fun j => ?_, funext fun j => ?_⟩
  · have hj : (j 0).val < 2048 := (j 0).isLt
    exact new14_rows m c t a14 ha14 d14 d13 h13 h14 j (by omega)
  · have hj : (j 0).val < 2048 := (j 0).isLt
    exact new15_rows m c t a15 ha15 d15 h15 j (by omega)

/-- The row stored at a graph's last slab, from the two full buffers, is the graph's read-out row. -/
theorem out_last (t : Fin cfg0.N) :
    P12 m c t (Full15 m c (graphOf t)) (Full14 m c (graphOf t)) = Out m c (graphOf t) := by
  unfold P12 Out; rw [iblk8_const, iblk9_const]

end Cert.KernelIdeal.Hand

end
-- ==== Proof.KI.RunA.lean ====
/- The kernel body at the first slab of a graph (first branch taken, second not): it normalises the graph's feature
   rows, multiplies by the first weight and stores the whole first feature product in scratch; then, as at every slab,
   copies the adjacency slab into the adjacency scratch, propagates the first product along the slab, takes the positive
   part, normalises, multiplies by the second weight and stores that slab of the second feature product. Stated as a
   triple over whole memrefs: inputs at their contents in and out, each scratch buffer handed back with the pieces
   written over what it held. -/
import proofs.«110909_g27616639713710_cont_9to1_58_32_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body writes into the three scratch buffers at a graph's first slab (first product whole, one slab
    of the second product, one slab of the adjacency), with the run that leaves them there. -/
noncomputable def runFirst (c : Dev nD) (i : grid0.Coords) (arg2 : Memref sig .tc .vmem S1x2048x512 .f32) (harg2 : arg2.IsWhole) (arg3 : Memref sig .tc .vmem S1x512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : condFirst i) (hc1 : ¬condLast i)
    (x0 : Vec F S1x2048x512 .f32) (x1 : Vec F S1x512x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (d12 : Vec F S1x1x128 .f32) (s13 : Vec F S2048x512 .bf16) (s14 : Vec F S2048x512 .bf16) (s15 : Vec F S2048x2048 .bf16) :
    { L : List (View.Piece (Elt F) S2048x512 .bf16) × List (View.Piece (Elt F) S2048x512 .bf16) × List (View.Piece (Elt F) S2048x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d12 ∗ owns (c : Thread nD τ) arg13 fullShare s13 ∗ owns (c : Thread nD τ) arg14 fullShare s14 ∗ owns (c : Thread nD τ) arg15 fullShare s15
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d12 ∗ (arg13.view.loc (c : Thread nD τ) ↦[arg13.view.set]{fullShare} arg13.view.writes (Elt F) (harg13.unread s13) L.1) ∗ (arg14.view.loc (c : Thread nD τ) ↦[arg14.view.set]{fullShare} arg14.view.writes (Elt F) (harg14.unread s14) L.2.1) ∗ (arg15.view.loc (c : Thread nD τ) ↦[arg15.view.set]{fullShare} arg15.view.writes (Elt F) (harg15.unread s15) L.2.2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_), fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexact HS0
    isplitl [HS1]; · iexact HS1
    iexact HS2

end Cert.KernelIdeal.Hand

end
-- ==== Proof.KI.RunB.lean ====
/- The kernel body at a middle slab of a graph (neither branch taken): it copies the adjacency slab into the adjacency
   scratch, propagates the first feature product held in scratch along the slab, takes the positive part, normalises
   the rows, multiplies by the second weight and stores that slab of the second feature product. Stated as a triple
   over whole memrefs: inputs at their contents in and out, the first scratch read and kept, the other two handed back
   with one slab written over what they held. -/
import proofs.«110909_g27616639713710_cont_9to1_58_32_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body writes into the second-product scratch and the adjacency scratch at a middle slab, with the run
    that leaves them there. -/
noncomputable def runMid (c : Dev nD) (i : grid0.Coords) (arg2 : Memref sig .tc .vmem S1x2048x512 .f32) (harg2 : arg2.IsWhole) (arg3 : Memref sig .tc .vmem S1x512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬condFirst i) (hc1 : ¬condLast i)
    (x0 : Vec F S1x2048x512 .f32) (x1 : Vec F S1x512x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (d12 : Vec F S1x1x128 .f32) (s13 : Vec F S2048x512 .bf16) (s14 : Vec F S2048x512 .bf16) (s15 : Vec F S2048x2048 .bf16) :
    { L : List (View.Piece (Elt F) S2048x512 .bf16) × List (View.Piece (Elt F) S2048x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d12 ∗ owns (c : Thread nD τ) arg13 fullShare s13 ∗ owns (c : Thread nD τ) arg14 fullShare s14 ∗ owns (c : Thread nD τ) arg15 fullShare s15
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d12 ∗ owns (c : Thread nD τ) arg13 fullShare s13 ∗ (arg14.view.loc (c : Thread nD τ) ↦[arg14.view.set]{fullShare} arg14.view.writes (Elt F) (harg14.unread s14) L.1) ∗ (arg15.view.loc (c : Thread nD τ) ↦[arg15.view.set]{fullShare} arg15.view.writes (Elt F) (harg15.unread s15) L.2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_), fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]
    · iexists _; isplitr; · ipureintro; exact harg13.read_unread _
      iexact HS0
    isplitl [HS1]; · iexact HS1
    iexact HS2

end Cert.KernelIdeal.Hand

end
-- ==== Proof.KI.RunC.lean ====
/- The kernel body at the last slab of a graph (second branch taken, first not): the slab's work as at a middle slab,
   then the whole adjacency scratch times the whole second feature product, the positive part, each node's feature
   sum, the product with the read-out weight plus the bias, stored into the output block. Stated as a triple over whole
   memrefs: inputs at their contents in and out, the first scratch read and kept, the other two handed back with one
   slab written, the output block with the read-out row written. -/
import proofs.«110909_g27616639713710_cont_9to1_58_32_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body writes at a graph's last slab into the second-product scratch, the adjacency scratch and the
    output block, with the run that leaves them there. -/
noncomputable def runLast (c : Dev nD) (i : grid0.Coords) (arg2 : Memref sig .tc .vmem S1x2048x512 .f32) (harg2 : arg2.IsWhole) (arg3 : Memref sig .tc .vmem S1x512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬condFirst i) (hc1 : condLast i)
    (x0 : Vec F S1x2048x512 .f32) (x1 : Vec F S1x512x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (s13 : Vec F S2048x512 .bf16) (s14 : Vec F S2048x512 .bf16) (s15 : Vec F S2048x2048 .bf16) :
    { L : List (View.Piece (Elt F) S2048x512 .bf16) × List (View.Piece (Elt F) S2048x2048 .bf16) × List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare s13 ∗ owns (c : Thread nD τ) arg14 fullShare s14 ∗ owns (c : Thread nD τ) arg15 fullShare s15
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.2.2) ∗ owns (c : Thread nD τ) arg13 fullShare s13 ∗ (arg14.view.loc (c : Thread nD τ) ↦[arg14.view.set]{fullShare} arg14.view.writes (Elt F) (harg14.unread s14) L.1) ∗ (arg15.view.loc (c : Thread nD τ) ↦[arg15.view.set]{fullShare} arg15.view.writes (Elt F) (harg15.unread s15) L.2.1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_), fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    isplitl [HS1]; · iexact HS1
    iexact HS2

end Cert.KernelIdeal.Hand

end
-- ==== Proof.KI.Pieces.lean ====
/- What the three runs of the kernel body write, piece by piece, as the body's pure terms of the input blocks and of the
   scratch contents found: at a graph's first slab the whole first feature product, and one slab each of the second
   product (computed from that first product) and of the adjacency; at a middle slab the two slabs, the second product
   from the first product found in scratch; at the last slab the two slabs and the read-out row, computed from the two
   scratch buffers as they stand after the slabs are written. -/
import proofs.«110909_g27616639713710_cont_9to1_58_32_alg».proof.Proof.KI.RunA
import proofs.«110909_g27616639713710_cont_9to1_58_32_alg».proof.Proof.KI.RunB
import proofs.«110909_g27616639713710_cont_9to1_58_32_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- First slab of a graph. -/
theorem runFirst_pieces (c : Dev nD) (i : grid0.Coords) (arg2 : Memref sig .tc .vmem S1x2048x512 .f32) (harg2 : arg2.IsWhole) (arg3 : Memref sig .tc .vmem S1x512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : condFirst i) (hc1 : ¬condLast i)
    (x0 : Vec F S1x2048x512 .f32) (x1 : Vec F S1x512x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (d12 : Vec F S1x1x128 .f32) (s13 : Vec F S2048x512 .bf16) (s14 : Vec F S2048x512 .bf16) (s15 : Vec F S2048x2048 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 d12 s13 s14 s15).1
      = ([⟨Rect.unit ![0, 0] S2048x512.size inb_S2048x512_S2048x512_0_0, k0_pay3 x0 x2 x3 x4⟩],
         [⟨Rect.unit (k0_off2 i) S512x512.size (k0_off2_inb i), k0_pay1 (k0_pay6 x6) (k0_pay7 x1 (k0_pay3 x0 x2 x3 x4)) (k0_pay8 x5) x7⟩],
         [⟨Rect.unit (k0_off1 i) S512x2048.size (k0_off1_inb i), k0_pay5 x1⟩]) := by
  unfold runFirst
  dsimp only
  sl_unfold_run_names
  simp only [View.readAt_eq_ld, Memref.IsWhole.read_unread, View.readCov_unit_zero (S := S2048x512) _ hz2, View.ld_unit_zero (S := S1x2048x512) hz3, View.ld_unit_zero (S := S1x512x2048) hz3, View.ld_unit_zero (S := S1x512) hz2, View.ld_unit_zero (S := S512x512) hz2, View.ld_unit_zero (S := S2048x128) hz2, View.ld_unit_zero (S := S1x128) hz2, View.ld_unit_zero (S := S2048x512) hz2, View.ld_unit_zero (S := S2048x2048) hz2, View.ld_unit_zero (S := S1x1x128) hz3]

/-- A middle slab. -/
theorem runMid_pieces (c : Dev nD) (i : grid0.Coords) (arg2 : Memref sig .tc .vmem S1x2048x512 .f32) (harg2 : arg2.IsWhole) (arg3 : Memref sig .tc .vmem S1x512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬condFirst i) (hc1 : ¬condLast i)
    (x0 : Vec F S1x2048x512 .f32) (x1 : Vec F S1x512x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (d12 : Vec F S1x1x128 .f32) (s13 : Vec F S2048x512 .bf16) (s14 : Vec F S2048x512 .bf16) (s15 : Vec F S2048x2048 .bf16) :
    (runMid c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 d12 s13 s14 s15).1
      = ([⟨Rect.unit (k0_off2 i) S512x512.size (k0_off2_inb i), k0_pay1 (k0_pay6 x6) (k0_pay7 x1 s13) (k0_pay8 x5) x7⟩], [⟨Rect.unit (k0_off1 i) S512x2048.size (k0_off1_inb i), k0_pay5 x1⟩]) := by
  unfold runMid
  dsimp only
  sl_unfold_run_names
  simp only [View.readAt_eq_ld, Memref.IsWhole.read_unread, View.readCov_unit_zero (S := S2048x512) _ hz2, View.ld_unit_zero (S := S1x2048x512) hz3, View.ld_unit_zero (S := S1x512x2048) hz3, View.ld_unit_zero (S := S1x512) hz2, View.ld_unit_zero (S := S512x512) hz2, View.ld_unit_zero (S := S2048x128) hz2, View.ld_unit_zero (S := S1x128) hz2, View.ld_unit_zero (S := S2048x512) hz2, View.ld_unit_zero (S := S2048x2048) hz2, View.ld_unit_zero (S := S1x1x128) hz3]

/-- Last slab of a graph. -/
theorem runLast_pieces (c : Dev nD) (i : grid0.Coords) (arg2 : Memref sig .tc .vmem S1x2048x512 .f32) (harg2 : arg2.IsWhole) (arg3 : Memref sig .tc .vmem S1x512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬condFirst i) (hc1 : condLast i)
    (x0 : Vec F S1x2048x512 .f32) (x1 : Vec F S1x512x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (s13 : Vec F S2048x512 .bf16) (s14 : Vec F S2048x512 .bf16) (s15 : Vec F S2048x2048 .bf16) :
    (runLast c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 s13 s14 s15).1
      = ([⟨Rect.unit (k0_off2 i) S512x512.size (k0_off2_inb i), k0_pay1 (k0_pay6 x6) (k0_pay7 x1 s13) (k0_pay8 x5) x7⟩], [⟨Rect.unit (k0_off1 i) S512x2048.size (k0_off1_inb i), k0_pay5 x1⟩],
         [⟨Rect.unit ![0, 0, 0] S1x1x128.size inb_S1x1x128_S1x1x128_0_0_0,
            k0_pay2 (arg15.view.read (Elt F) (arg15.view.writes (Elt F) (harg15.unread s15) [⟨Rect.unit (k0_off1 i) S512x2048.size (k0_off1_inb i), k0_pay5 x1⟩]))
              (arg14.view.read (Elt F) (arg14.view.writes (Elt F) (harg14.unread s14) [⟨Rect.unit (k0_off2 i) S512x512.size (k0_off2_inb i), k0_pay1 (k0_pay6 x6) (k0_pay7 x1 s13) (k0_pay8 x5) x7⟩])) x8 x9⟩]) := by
  unfold runLast
  dsimp only
  sl_unfold_run_names
  simp only [View.readAt_eq_ld, Memref.IsWhole.read_unread, View.readCov_unit_zero (S := S2048x512) _ hz2, View.ld_unit_zero (S := S1x2048x512) hz3, View.ld_unit_zero (S := S1x512x2048) hz3, View.ld_unit_zero (S := S1x512) hz2, View.ld_unit_zero (S := S512x512) hz2, View.ld_unit_zero (S := S2048x128) hz2, View.ld_unit_zero (S := S1x128) hz2, View.ld_unit_zero (S := S2048x512) hz2, View.ld_unit_zero (S := S2048x2048) hz2, View.ld_unit_zero (S := S1x1x128) hz3]

end Cert.KernelIdeal.Hand

end
-- ==== Proof.KI.Body.lean ====
/- The pipeline's body obligation for the proof data of the one region, case by case on the grid point's place in its
   graph (first slab, middle slab, last slab): each case's run is fed the windows' blocks and the scratch buffers at the
   contents the invariant names, and hands back the scratch buffers at the contents the invariant names one point
   later; the output block is idle away from a graph's last slab and holds the graph's read-out row there. Then the
   two entailments between the launch's invariant and the region's, the frame run, and the frame claim. -/
import proofs.«110909_g27616639713710_cont_9to1_58_32_alg».proof.Proof.KI.BodyInv
import proofs.«110909_g27616639713710_cont_9to1_58_32_alg».proof.Proof.KI.Pieces
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at grid point t: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns: the invariant at the next point, and each buffer at what the body leaves in it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1000000 in
/-- The first slab of a graph: the first feature product is stored whole, one slab of the second product and of the
    adjacency is stored, and the invariant is established; the output block is handed back as found. -/
theorem sound_first (c : Dev nD) (t : Fin cfg0.N) (h0 : t.val % 4 = 0) (h1 : ¬ t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.castSucc = PhiS m c t.val from rfl, show (dats m 0 c).Φ t.succ = PhiS m c (t.val + 1) from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [(dats m 0 c).leavesExact_idle 10 t ((idle10_iff t).mpr h1) (Bool.eq_false_iff.mpr fun h => h1 ((flush10_iff t).mp h))]
  unfold PhiS
  iintro ⟨⟨⟨%d13, %d14, %d15, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hr := (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc13 (Memref.isWhole_whole _) sc14 (Memref.isWhole_whole _) sc15 (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) d13 d14 d15).2 Set.univ
  rw [runFirst_pieces] at hr
  dsimp only at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · iexists (P13 m c t), (new14 sc14 (Memref.isWhole_whole _) (grid0.coords t) d14 (P14 m c t (P13 m c t))), (new15 sc15 (Memref.isWhole_whole _) (grid0.coords t) d15 (P15 m c t))
      isplitr
      · ipureintro; exact inv_first m c t h0 sc14 (Memref.isWhole_whole _) sc15 (Memref.isWhole_whole _) d14 d15
      isplitl [HS0]
      · unfold owns; iexists _; isplitr
        swap; · iexact HS0
        ipureintro; exact new13_whole sc13 (Memref.isWhole_whole _) d13 _
      isplitl [HS1]
      · unfold owns; iexists _; isplitr
        swap; · iexact HS1
        ipureintro; rfl
      · unfold owns; iexists _; isplitr
        swap; · iexact HS2
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 1000000 in
/-- A middle slab: one more slab of the second product and of the adjacency is stored, and the invariant moves one
    slab further; the first product and the output block are handed back as found. -/
theorem sound_mid (c : Dev nD) (t : Fin cfg0.N) (h0 : ¬ t.val % 4 = 0) (h1 : ¬ t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.castSucc = PhiS m c t.val from rfl, show (dats m 0 c).Φ t.succ = PhiS m c (t.val + 1) from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [(dats m 0 c).leavesExact_idle 10 t ((idle10_iff t).mpr h1) (Bool.eq_false_iff.mpr fun h => h1 ((flush10_iff t).mp h))]
  unfold PhiS
  iintro ⟨⟨⟨%d13, %d14, %d15, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hr := (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc13 (Memref.isWhole_whole _) sc14 (Memref.isWhole_whole _) sc15 (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) d13 d14 d15).2 Set.univ
  rw [runMid_pieces] at hr
  dsimp only at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · iexists d13, (new14 sc14 (Memref.isWhole_whole _) (grid0.coords t) d14 (P14 m c t d13)), (new15 sc15 (Memref.isWhole_whole _) (grid0.coords t) d15 (P15 m c t))
      isplitr
      · ipureintro; exact inv_mid m c t h0 h1 sc14 (Memref.isWhole_whole _) sc15 (Memref.isWhole_whole _) d13 d14 d15 hI
      isplitl [HS0]; · iexact HS0
      isplitl [HS1]
      · unfold owns; iexists _; isplitr
        swap; · iexact HS1
        ipureintro; rfl
      · unfold owns; iexists _; isplitr
        swap; · iexact HS2
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 1000000 in
/-- The last slab of a graph: the last slab of the second product and of the adjacency is stored, so that both
    buffers hold the graph's whole arrays, and the row then stored in the output block is the graph's read-out row;
    between graphs the invariant claims nothing. -/
theorem sound_last (c : Dev nD) (t : Fin cfg0.N) (h1 : t.val % 4 = 3) :
    bodyPre m c t ⊢ wp frame (wpE (defs₀ (F := F)) Variants.none c none) Set.univ (bodyAt0 t) (fun _ => bodyPost m c t) := by
  have h0 : ¬ t.val % 4 = 0 := by omega
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.castSucc = PhiS m c t.val from rfl, show (dats m 0 c).Φ t.succ = PhiS m c (t.val + 1) from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact
    rw [show cfg0.idle 10 (grid0.coords t) = false from Bool.eq_false_iff.mpr fun h => (idle10_iff t).mp h h1], after10]
  unfold PhiS
  iintro ⟨⟨⟨%d13, %d14, %d15, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hr := (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc13 (Memref.isWhole_whole _) sc14 (Memref.isWhole_whole _) sc15 (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) d13 d14 d15).2 Set.univ
  rw [runLast_pieces] at hr
  dsimp only at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  iintro ⟨H0, H1, H2, H3, H4, H5, H6, H7, H8, H9, ⟨%f, H10⟩, HS0, HS1, HS2⟩
  isplitl [HS0 HS1 HS2 Hg]
  · isplitl [HS0 HS1 HS2]
    · iexists d13, (new14 sc14 (Memref.isWhole_whole _) (grid0.coords t) d14 (P14 m c t d13)), (new15 sc15 (Memref.isWhole_whole _) (grid0.coords t) d15 (P15 m c t))
      isplitr
      · ipureintro; exact inv_zero_mod m c (t.val + 1) (by omega) _ _ _
      isplitl [HS0]; · iexact HS0
      isplitl [HS1]
      · unfold owns; iexists _; isplitr
        swap; · iexact HS1
        ipureintro; rfl
      · unfold owns; iexists _; isplitr
        swap; · iexact HS2
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro
  rw [out_whole]
  have hf := last_full m c t h1 sc14 (Memref.isWhole_whole _) sc15 (Memref.isWhole_whole _) d13 d14 d15 hI
  show P12 m c t (new15 sc15 (Memref.isWhole_whole _) (grid0.coords t) d15 (P15 m c t)) (new14 sc14 (Memref.isWhole_whole _) (grid0.coords t) d14 (P14 m c t d13)) = Out m c (graphOf t)
  rw [hf.1, hf.2]
  exact out_last m c t

/-- The body at any point, by the point's place in its graph. -/
theorem sound_body (c : Dev nD) (t : Fin cfg0.N) :
    bodyPre m c t ⊢ wp frame (wpE (defs₀ (F := F)) Variants.none c none) Set.univ (bodyAt0 t) (fun _ => bodyPost m c t) := by
  by_cases h1 : t.val % 4 = 3
  · exact sound_last m c t h1
  · by_cases h0 : t.val % 4 = 0
    · exact sound_first m c t h0 h1
    · exact sound_mid m c t h0 h1

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## Around the invariant -/

/-- What the launch hands the region is the invariant before the first point: before a graph's first slab nothing is
    claimed of the scratch buffers. -/
theorem hin (c : Dev nD) : Pipeline.ΦA spec0 c ⊢ (dats m 0 c).Φ 0 := by
  rw [PhiA_eq, show (dats m 0 c).Φ 0 = PhiS m c 0 from rfl]
  unfold PhiS
  iintro ⟨⟨⟨%d13, H13⟩, ⟨%d14, H14⟩, ⟨%d15, H15⟩⟩, Hg⟩
  isplitl [H13 H14 H15]
  · iexists d13, d14, d15
    isplitr
    · ipureintro; exact inv_zero_mod m c 0 rfl d13 d14 d15
    isplitl [H13]; · iexact H13
    isplitl [H14]; · iexact H14
    iexact H15
  iexact Hg

/-- After the last point the invariant gives the launch's back: what the scratch buffers hold is forgotten. -/
theorem hout (c : Dev nD) : (dats m 0 c).Φ (Fin.last cfg0.N) ⊢ Pipeline.ΦA spec0 c := by
  rw [PhiA_eq, show (dats m 0 c).Φ (Fin.last cfg0.N) = PhiS m c (Fin.last cfg0.N).val from rfl]
  unfold PhiS
  iintro ⟨⟨%d13, %d14, %d15, -, H13, H14, H15⟩, Hg⟩
  isplitl [H13 H14 H15]
  · isplitl [H13]; · iexists _; iexact H13
    isplitl [H14]; · iexists _; iexact H14
    iexists _; iexact H15
  iexact Hg

/-! ## The run and the frame -/

set_option backward.isDefEq.respectTransparency.types false in
/-- Every weakly fair execution of the program on the TensorCores terminates, and every final state has each array of
    the pipeline at what the proof data says and every other unscoped buffer at what the host lines after the region
    leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim: the program's argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.Spec.lean ====
/- The mathematics both programs compute, over the extended reals, index by index.

   A graph-convolution forward pass on four graphs of 2048 nodes: a row normalisation of the 512 node features
   (centre each row, scale by the inverse square root of its mean square deviation plus a small constant, then an
   affine map), a feature product with a 512 × 512 weight, a propagation along the 2048 × 2048 adjacency followed by
   the positive part; the same three steps once more; then the sum of each node's features, a product of those 2048
   sums with a 2048 × 128 weight, and a bias. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The row length 512 as both programs spell it. -/
def c512 : EReal := Ideal.ofBits .f32 0x44000000#32
/-- The small constant added to a row's mean square deviation. -/
def ceps : EReal := Ideal.ofBits .f32 0x3727C5AC#32

/-- The mean of a row. -/
def rowMean (x : Fin 512 → EReal) : EReal := Ideal.div (∑ f, x f) c512
/-- A row's mean square deviation plus the small constant. -/
def rowVarEps (x : Fin 512 → EReal) : EReal :=
  Ideal.div (∑ f, (x f - rowMean x) * (x f - rowMean x)) c512 + ceps

/-- The row normalisation with the inverse square root as a factor. -/
def lnK (x g b : Fin 512 → EReal) (f : Fin 512) : EReal :=
  (x f - rowMean x) * Ideal.rsqrt (rowVarEps x) * g f + b f

/-- The row normalisation with the square root as a divisor. -/
def lnR (x g b : Fin 512 → EReal) (f : Fin 512) : EReal :=
  Ideal.div (g f * (x f - rowMean x)) (Ideal.sqrt (rowVarEps x)) + b f

variable (v : Fin 4 → Fin 2048 → Fin 512 → EReal) (adj : Fin 4 → Fin 2048 → Fin 2048 → EReal)
  (g1 b1 : Fin 512 → EReal) (W1 : Fin 512 → Fin 512 → EReal) (g2 b2 : Fin 512 → EReal) (W2 : Fin 512 → Fin 512 → EReal)
  (Wo : Fin 2048 → Fin 128 → EReal) (bo : Fin 128 → EReal)

/-- First feature product: normalised features times the first weight. -/
def s1 (b : Fin 4) (n : Fin 2048) (h : Fin 512) : EReal := ∑ f, lnK (v b n) g1 b1 f * W1 f h
/-- First propagation and positive part. -/
def h1 (b : Fin 4) (n : Fin 2048) (h : Fin 512) : EReal := max (∑ m, adj b n m * s1 v g1 b1 W1 b m h) 0
/-- Second feature product. -/
def s2 (b : Fin 4) (n : Fin 2048) (k : Fin 512) : EReal := ∑ h, lnK (h1 v adj g1 b1 W1 b n) g2 b2 h * W2 h k
/-- Second propagation and positive part. -/
def h2 (b : Fin 4) (n : Fin 2048) (k : Fin 512) : EReal := max (∑ m, adj b n m * s2 v adj g1 b1 W1 g2 b2 W2 b m k) 0
/-- Each node's feature sum. -/
def src (b : Fin 4) (n : Fin 2048) : EReal := ∑ k, h2 v adj g1 b1 W1 g2 b2 W2 b n k
/-- The read-out. -/
def out (b : Fin 4) (l : Fin 128) : EReal := (∑ n, src v adj g1 b1 W1 g2 b2 W2 b n * Wo n l) + bo l

/-- The read-out as a function of the ten argument arrays at their literal shapes: entry (b, l) of the result. -/
def specOut (a0 : (⟨3, ![4, 2048, 512]⟩ : Shape).Idx → EReal) (a1 : (⟨3, ![4, 2048, 2048]⟩ : Shape).Idx → EReal)
    (a2 a3 : (⟨1, ![512]⟩ : Shape).Idx → EReal) (a4 : (⟨2, ![512, 512]⟩ : Shape).Idx → EReal)
    (a5 a6 : (⟨1, ![512]⟩ : Shape).Idx → EReal) (a7 : (⟨2, ![512, 512]⟩ : Shape).Idx → EReal)
    (a8 : (⟨2, ![2048, 128]⟩ : Shape).Idx → EReal) (a9 : (⟨1, ![128]⟩ : Shape).Idx → EReal) :
    (⟨2, ![4, 128]⟩ : Shape).Idx → EReal :=
  fun j => out (fun b n f => a0 (ix3 b n f)) (fun b n m => a1 (ix3 b n m)) (fun f => a2 (ix1 f)) (fun f => a3 (ix1 f))
    (fun f h => a4 (ix2 f h)) (fun f => a5 (ix1 f)) (fun f => a6 (ix1 f)) (fun h k => a7 (ix2 h k))
    (fun n l => a8 (ix2 n l)) (fun l => a9 (ix1 l)) (j 0) (j 1)

end Cert.Spec

end
-- ==== Proof.SpecLemmas.lean ====
/- Facts about the specification's definitions: the two constants as real numbers, the positivity of a
   row's mean square deviation plus the small constant, and the agreement of the two spellings of the row
   normalisation (inverse square root as a factor, square root as a divisor) on every extended-real input. -/
import proofs.«110909_g27616639713710_cont_9to1_58_32_alg».proof.Proof.Spec
import Idealize.ShloMosaic.PureOps.Ideal
import Idealize.ShloMosaic.PureOps.Ideal.Laws
import Mathlib.Data.EReal.Basic
import Mathlib.Data.EReal.Operations
import Mathlib.Data.EReal.Inv

noncomputable section

namespace Cert.Spec

open Idealize.ShloMosaic
open scoped BigOperators

/-! ### The constants -/

/-- Sign 0, exponent 136, fraction 0: the value is 2 ^ 23 · 2 ^ (136 - 127 - 23) = 2 ^ 9 = 512. -/
theorem c512_eq : c512 = ((512 : ℝ) : EReal) := by
  unfold c512
  simp [Ideal.ofBits, Ideal.ieee, -EReal.coe_mul]; norm_num

/-- Sign 0, exponent 110, fraction 2606508: a normal number, (2 ^ 23 + 2606508) · 2 ^ (110 - 127 - 23), a product
    of two positive reals. -/
theorem ceps_pos : ∃ r : ℝ, 0 < r ∧ ceps = ((r : ℝ) : EReal) := by
  refine ⟨((2 ^ 23 + 2606508 : ℕ) : ℝ) * (2 : ℝ) ^ ((110 : ℤ) - 127 - 23), by positivity, ?_⟩
  unfold ceps
  simp [Ideal.ofBits, Ideal.ieee, -EReal.coe_mul]

/-- The all-zero pattern denotes 0. -/
theorem zero_bits : Ideal.ofBits .f32 0x00000000#32 = (0 : EReal) := Ideal.ofBits_zero_f32

/-- The integer 0 converts to the real 0. -/
theorem sitofp_zero : FloatOps.sitofp (F := Ideal) .f32 (0#32 : BitVec 32) = (0 : EReal) := by
  show ((((0#32 : BitVec 32).toInt : ℤ) : ℝ) : EReal) = 0
  simp

/-- The divisor 512 - 0 is 512. -/
theorem c512_sub_zero : FloatOps.subf (F := Ideal) (φ := .f32) c512 (0 : EReal) = c512 := by
  show c512 - 0 = c512
  exact sub_zero _

/-- 512 is above 0, so the ordered comparison "greater than" answers true. -/
theorem cmp_c512_pos : FloatOps.cmpf (F := Ideal) (φ := .f32) .ogt c512 (0 : EReal) = 1#1 := by
  have h : (0 : EReal) < c512 := by rw [c512_eq]; exact EReal.coe_pos.mpr (by norm_num)
  rw [Ideal.cmpf_def]
  simp [Ideal.cmp, h]

/-! ### Positivity of the scale's argument -/

/-- A square is nonnegative on the extended reals, the infinities included (⊥ · ⊥ = ⊤): at 0 ≤ x it is a product
    of nonnegatives, and at x ≤ 0 it is (-x) · (-x) with 0 ≤ -x. -/
theorem mul_self_nonneg' (x : EReal) : 0 ≤ x * x := by
  rcases le_total 0 x with h | h
  · exact EReal.mul_nonneg h h
  · rw [← neg_mul_neg]
    have h' : 0 ≤ -x := EReal.neg_nonneg.mpr h
    exact EReal.mul_nonneg h' h'

/-- A row's mean square deviation plus the small constant is above 0: the sum of squares is ≥ 0 (possibly ⊤), its
    quotient by 512 is its product with the nonnegative real 1/512 and so stays ≥ 0, and adding a positive real to
    a nonnegative extended real gives a positive one. -/
theorem rowVarEps_pos (x : Fin 512 → EReal) : 0 < rowVarEps x := by
  obtain ⟨r, hr, hc⟩ := ceps_pos
  unfold rowVarEps
  have hS : 0 ≤ ∑ f, (x f - rowMean x) * (x f - rowMean x) :=
    Finset.sum_nonneg fun f _ => mul_self_nonneg' _
  have hD : 0 ≤ Ideal.div (∑ f, (x f - rowMean x) * (x f - rowMean x)) c512 := by
    rw [c512_eq, Ideal.div_coe (by norm_num)]
    exact EReal.mul_nonneg hS (EReal.coe_nonneg.mpr (by norm_num))
  rw [hc]
  exact Right.add_pos_of_nonneg_of_pos hD (EReal.coe_pos.mpr hr)

/-! ### The two spellings of the row normalisation -/

/-- Dividing by the square root and multiplying by the inverse square root agree at every input. Write y for the
    row's mean square deviation plus the small constant; 0 < y, so y is ⊤ or a positive real. At y = ⊤ the square
    root is ⊤, whose inverse is 0, and the inverse square root is 0: both scaled terms vanish. At a real y = r > 0
    the square root √r is a nonzero real, the quotient by it is the product with (√r)⁻¹, which is the inverse
    square root, and the two products differ only in the order of their three factors. -/
theorem lnR_eq_lnK (x g b : Fin 512 → EReal) (f : Fin 512) : lnR x g b f = lnK x g b f := by
  have hy := rowVarEps_pos x
  unfold lnR lnK
  generalize rowVarEps x = y at hy ⊢
  generalize x f - rowMean x = d
  induction y using EReal.rec with
  | bot => exact absurd hy (not_lt.mpr bot_le)
  | top =>
    rw [Ideal.sqrt_top, Ideal.rsqrt_top, Ideal.div, if_neg EReal.top_ne_zero, EReal.inv_top, mul_zero, mul_zero,
      zero_mul]
  | coe r =>
    have hr : 0 < r := EReal.coe_pos.mp hy
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div, mul_comm (g f) d, mul_right_comm]

end Cert.Spec

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KI.PayValue.lean ====
/- The four values the body stores, read at one index over the extended reals, as functions of abstract input vectors.

   The first feature product at (n, h) is the sum over f of the normalised feature f of node n times the first weight
   at (f, h); the adjacency slab as stored is the block with its unit axis dropped; the second feature product at
   (p, k) is the sum over h of the normalised positive part of the propagated first product of row p times the second
   weight at (h, k); the read-out at l is the sum over the nodes of each node's feature sum of the positive part of the
   second propagation times the read-out weight, plus the bias. The row normalisation is spelled in the operation
   order of the specification (centre by the mean, multiply by the inverse square root of the mean square deviation
   plus the small constant, scale, shift), so each reading is the layout operations, the lane sums and the products
   read at an index, with no algebra. -/
import proofs.«110909_g27616639713710_cont_9to1_58_32_alg».proof.Proof.Gen.KernelIdeal.Skeleton
import proofs.«110909_g27616639713710_cont_9to1_58_32_alg».proof.Proof.Gen.KernelIdeal
import proofs.«110909_g27616639713710_cont_9to1_58_32_alg».proof.Proof.Spec
import proofs.«110909_g27616639713710_cont_9to1_58_32_alg».proof.Proof.SpecLemmas
import proofs.«110909_g27616639713710_cont_9to1_58_32_alg».proof.Proof.LibDotPlain
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.PayValue

open Cert.KernelIdeal Cert.KernelIdeal.Gen Idealize.ShloMosaic Idealize.ShloMosaic.ValueIdx
open scoped BigOperators

/-! ## Layout operations at an index: the column forms of a kept reduced axis -/

section Layout
variable {α : Type}

/-- An `[a]` array cast to the column `[a, 1]` reads, at `(i, u)`, the operand at `i`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the second axis of an `[R, C]` matrix, at row `p`, is the sum over the columns of that row's entries. -/
theorem rowSum_apply {R C : ℕ} {φ : FTy} (src : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin C, src (ix2 p k) :=
  (Ideal.multiReduction_add_single src acc h hφ hacc (ix1 p)).trans
    (Finset.sum_congr rfl fun k _ => congrArg src (funext fun ax => Fin.ext (match ax with | ⟨0, _⟩ => rfl | ⟨1, _⟩ => rfl)))

/-! ## The row normalisation of an `[R, 512]` matrix, as the kernel spells it

Sum each row and keep it as a column, divide by 512: the mean column. Subtract it from every column: the centred
rows. The mean column of their squares plus the small constant, its inverse square root broadcast along the rows and
multiplied in: the centred rows scaled. -/

section RowNorm
variable {R : ℕ} (hr : (⟨2, ![R, 512]⟩ : Shape).Reduces [1] ⟨1, ![R]⟩)
  (hc : (⟨1, ![R]⟩ : Shape).ShapeCasts ⟨2, ![R, 1]⟩) (hb : (⟨2, ![R, 1]⟩ : Shape).Broadcasts ⟨2, ![R, 512]⟩)

/-- Each row's sum, kept as a column, over 512. -/
def meanCol (Y : FVec Ideal ⟨2, ![R, 512]⟩ .f32) : FVec Ideal ⟨2, ![R, 1]⟩ .f32 :=
  divf (shapeCast ⟨2, ![R, 1]⟩ (multiReduction .add [1] ⟨1, ![R]⟩ Y 0x00000000#32 hr (.inl rfl) rfl) hc)
    (broadcast ⟨2, ![R, 1]⟩ (Scalar.ofBits (F := Ideal) .f32 0x44000000#32))

/-- The rows minus their means. -/
def centred (X : FVec Ideal ⟨2, ![R, 512]⟩ .f32) : FVec Ideal ⟨2, ![R, 512]⟩ .f32 :=
  subf X (broadcastTo ⟨2, ![R, 512]⟩ (meanCol hr hc X) hb)

/-- The centred rows times the inverse square root of their mean square plus the small constant. -/
def scaled (X : FVec Ideal ⟨2, ![R, 512]⟩ .f32) : FVec Ideal ⟨2, ![R, 512]⟩ .f32 :=
  mulf (centred hr hc hb X)
    (broadcastTo ⟨2, ![R, 512]⟩
      (rsqrt (addf (meanCol hr hc (mulf (centred hr hc hb X) (centred hr hc hb X)))
        (broadcast ⟨2, ![R, 1]⟩ (Scalar.ofBits (F := Ideal) .f32 0x3727C5AC#32)))) hb)

/-- The mean column at row `p`: the row's sum over 512. -/
theorem meanCol_apply (Y : FVec Ideal ⟨2, ![R, 512]⟩ .f32) (p : Fin R) (u : Fin 1) :
    meanCol hr hc Y (ix2 p u) = Ideal.div (∑ f : Fin 512, Y (ix2 p f)) Spec.c512 :=
  congrArg (fun s => Ideal.div s Spec.c512)
    ((shapeCast_a_a1_apply _ hc p u).trans (rowSum_apply Y _ hr _ _ p))

/-- The centred rows at `(p, f)`, for a row known entry by entry. -/
theorem centred_apply (X : FVec Ideal ⟨2, ![R, 512]⟩ .f32) (p : Fin R) (x : Fin 512 → EReal)
    (hx : ∀ f, X (ix2 p f) = x f) (f : Fin 512) :
    centred hr hc hb X (ix2 p f) = x f - Spec.rowMean x := by
  have hm : broadcastTo ⟨2, ![R, 512]⟩ (meanCol hr hc X) hb (ix2 p f) = Spec.rowMean x :=
    (broadcastTo_a1_ab_apply _ hb p f).trans ((meanCol_apply hr hc X p 0).trans
      (congrArg (fun s => Ideal.div s Spec.c512) (Finset.sum_congr rfl fun f' _ => hx f')))
  show X (ix2 p f) - broadcastTo ⟨2, ![R, 512]⟩ (meanCol hr hc X) hb (ix2 p f) = _
  rw [hm, hx]

/-- The scaled centred rows at `(p, f)`: the specification's centred entry times the inverse square root of the row's
    mean square deviation plus the small constant. -/
theorem scaled_apply (X : FVec Ideal ⟨2, ![R, 512]⟩ .f32) (p : Fin R) (x : Fin 512 → EReal)
    (hx : ∀ f, X (ix2 p f) = x f) (f : Fin 512) :
    scaled hr hc hb X (ix2 p f) = (x f - Spec.rowMean x) * Ideal.rsqrt (Spec.rowVarEps x) := by
  have hv : meanCol hr hc (mulf (centred hr hc hb X) (centred hr hc hb X)) (ix2 p (0 : Fin 1))
      = Ideal.div (∑ f', (x f' - Spec.rowMean x) * (x f' - Spec.rowMean x)) Spec.c512 :=
    (meanCol_apply hr hc _ p 0).trans (congrArg (fun s => Ideal.div s Spec.c512)
      (Finset.sum_congr rfl fun f' _ => by
        show centred hr hc hb X (ix2 p f') * centred hr hc hb X (ix2 p f') = _
        rw [centred_apply hr hc hb X p x hx f']))
  have hs : broadcastTo ⟨2, ![R, 512]⟩
        (rsqrt (addf (meanCol hr hc (mulf (centred hr hc hb X) (centred hr hc hb X)))
          (broadcast ⟨2, ![R, 1]⟩ (Scalar.ofBits (F := Ideal) .f32 0x3727C5AC#32)))) hb (ix2 p f)
      = Ideal.rsqrt (Spec.rowVarEps x) :=
    (broadcastTo_a1_ab_apply _ hb p f).trans (by
      show Ideal.rsqrt (meanCol hr hc (mulf (centred hr hc hb X) (centred hr hc hb X)) (ix2 p (0 : Fin 1)) + Spec.ceps) = _
      rw [hv]; rfl)
  show centred hr hc hb X (ix2 p f) * broadcastTo ⟨2, ![R, 512]⟩
        (rsqrt (addf (meanCol hr hc (mulf (centred hr hc hb X) (centred hr hc hb X)))
          (broadcast ⟨2, ![R, 1]⟩ (Scalar.ofBits (F := Ideal) .f32 0x3727C5AC#32)))) hb (ix2 p f) = _
  rw [hs, centred_apply hr hc hb X p x hx f]

end RowNorm

/-! ## The four stored values at an index -/

/-- The adjacency slab as stored: the block with its unit axis dropped. -/
theorem pay5_apply (x1 : Vec Ideal S1x512x2048 .f32) (p : Fin 512) (q : Fin 2048) : k0_pay5 x1 (ix2 p q) = x1 (ix3 0 p q) := by
  unfold k0_pay5 k0_pay4
  refine (congrFun (shapeCast_self _ _) _).trans ?_
  exact shapeCast_1ab_ab_apply x1 _ p q

/-- The first feature product: the normalised features of node `n` times the first weight. -/
theorem pay3_apply (x0 : Vec Ideal S1x2048x512 .f32) (x2 x3 : Vec Ideal S1x512 .f32) (x4 : Vec Ideal S512x512 .f32)
    (n : Fin 2048) (h : Fin 512) :
    k0_pay3 x0 x2 x3 x4 (ix2 n h)
      = ∑ f : Fin 512, Cert.Spec.lnK (fun f' => x0 (ix3 0 n f')) (fun f' => x2 (ix2 0 f')) (fun f' => x3 (ix2 0 f')) f * x4 (ix2 f h) := by
  unfold k0_pay3
  refine (congrFun (shapeCast_self _ _) _).trans ?_
  refine (Cert.DotPlain.matmul_zero_rows_cols _ rfl rfl rfl rfl rfl rfl none _ _ n h).trans ?_
  refine Finset.sum_congr rfl fun f _ => ?_
  refine congrArg (· * x4 (ix2 f h)) ?_
  have hX : ∀ f', shapeCast S2048x512 x0 shapeCasts_S1x2048x512_S2048x512 (ix2 n f') = x0 (ix3 0 n f') :=
    fun f' => shapeCast_1ab_ab_apply x0 _ n f'
  have hS := scaled_apply reduces_S2048x512_S2048 shapeCasts_S2048_S2048x1 broadcasts_S2048x1_S2048x512
    (shapeCast S2048x512 x0 shapeCasts_S1x2048x512_S2048x512) n (fun f' => x0 (ix3 0 n f')) hX f
  have hg : broadcastTo S2048x512 (shapeCast S1x512 x2 shapeCasts_S1x512_S1x512) broadcasts_S1x512_S2048x512 (ix2 n f) = x2 (ix2 0 f) :=
    (broadcastTo_1b_ab_apply _ _ n f).trans (congrFun (shapeCast_self _ _) _)
  have hb : broadcastTo S2048x512 (shapeCast S1x512 x3 shapeCasts_S1x512_S1x512) broadcasts_S1x512_S2048x512 (ix2 n f) = x3 (ix2 0 f) :=
    (broadcastTo_1b_ab_apply _ _ n f).trans (congrFun (shapeCast_self _ _) _)
  unfold Spec.lnK
  exact congrArg₂ (· + ·) (congrArg₂ (· * ·) hS hg) hb

/-- The second feature product of slab row `p`: the normalised positive part of the propagated first product, times the
    second weight. -/
theorem pay1_apply (x6 : Vec Ideal S1x512 .f32) (x1 : Vec Ideal S1x512x2048 .f32) (s13 : Vec Ideal S2048x512 .bf16)
    (x5 : Vec Ideal S1x512 .f32) (x7 : Vec Ideal S512x512 .f32) (p : Fin 512) (k : Fin 512) :
    k0_pay1 (k0_pay6 x6) (k0_pay7 x1 s13) (k0_pay8 x5) x7 (ix2 p k)
      = ∑ h : Fin 512, Cert.Spec.lnK (fun h' => max (∑ mm : Fin 2048, x1 (ix3 0 p mm) * s13 (ix2 mm h')) 0)
          (fun h' => x5 (ix2 0 h')) (fun h' => x6 (ix2 0 h')) h * x7 (ix2 h k) := by
  unfold k0_pay1
  refine (congrFun (shapeCast_self _ _) _).trans ?_
  refine (Cert.DotPlain.matmul_zero_rows_cols _ rfl rfl rfl rfl rfl rfl none _ _ p k).trans ?_
  refine Finset.sum_congr rfl fun h _ => ?_
  refine congrArg (· * x7 (ix2 h k)) ?_
  have hX : ∀ h', maximumf (matmul (φ₂ := .bf16) dot_S512x2048_S2048x512_S512x512_1_0_0_1_n_n none (k0_pay4 x1) s13
        (constant S512x512 .f32 0x00000000#32)) (broadcast S512x512 (Scalar.ofBits (F := Ideal) .f32 0x00000000#32)) (ix2 p h')
      = max (∑ mm : Fin 2048, x1 (ix3 0 p mm) * s13 (ix2 mm h')) 0 := fun h' => by
    refine congrArg₂ max ?_ Spec.zero_bits
    refine (Cert.DotPlain.matmul_zero_rows_cols (φ₁ := .bf16) (φ₂ := .bf16) _ rfl rfl rfl rfl rfl rfl none _ _ p h').trans ?_
    exact Finset.sum_congr rfl fun mm _ => congrArg (· * s13 (ix2 mm h')) (shapeCast_1ab_ab_apply x1 _ p mm)
  have hS : k0_pay7 x1 s13 (ix2 p h) = _ :=
    scaled_apply reduces_S512x512_S512 shapeCasts_S512_S512x1 broadcasts_S512x1_S512x512 _ p _ hX h
  have hg : k0_pay8 x5 (ix2 p h) = x5 (ix2 0 h) :=
    (broadcastTo_1b_ab_apply (shapeCast S1x512 x5 shapeCasts_S1x512_S1x512) broadcasts_S1x512_S512x512 p h).trans
      (congrFun (shapeCast_self x5 _) _)
  have hb : broadcastTo S512x512 (k0_pay6 x6) broadcasts_S1x512_S512x512 (ix2 p h) = x6 (ix2 0 h) :=
    (broadcastTo_1b_ab_apply _ _ p h).trans (congrFun (shapeCast_self x6 _) _)
  unfold Spec.lnK
  exact congrArg₂ (· + ·) (congrArg₂ (· * ·) hS hg) hb

/-- The read-out row of a graph: each node's feature sum of the positive part of the second propagation, times the
    read-out weight, plus the bias. -/
theorem pay2_apply (d15 : Vec Ideal S2048x2048 .bf16) (d14 : Vec Ideal S2048x512 .bf16) (x8 : Vec Ideal S2048x128 .f32)
    (x9 : Vec Ideal S1x128 .f32) (l : Fin 128) :
    k0_pay2 d15 d14 x8 x9 (ix3 0 0 l)
      = (∑ n : Fin 2048, (∑ k : Fin 512, max (∑ mm : Fin 2048, d15 (ix2 n mm) * d14 (ix2 mm k)) 0) * x8 (ix2 n l))
        + x9 (ix2 0 l) := by
  unfold k0_pay2
  refine (shapeCast_ab_1ab_apply _ _ 0 0 l).trans ?_
  refine congrArg₂ (· + ·) ?_ (congrFun (shapeCast_self x9 _) _)
  refine (Cert.DotPlain.matmul_zero_rows_cols _ rfl rfl rfl rfl rfl rfl none _ _ 0 l).trans ?_
  refine Finset.sum_congr rfl fun n _ => congrArg (· * x8 (ix2 n l)) ?_
  refine (shapeCast_a_1a_apply _ _ 0 n).trans ?_
  refine (rowSum_apply _ _ _ _ _ n).trans ?_
  refine Finset.sum_congr rfl fun k _ => ?_
  exact congrArg₂ max (Cert.DotPlain.matmul_zero_rows_cols _ rfl rfl rfl rfl rfl rfl none _ _ n k) Spec.zero_bits

end Cert.KernelIdeal.PayValue

end
-- ==== Proof.KI.OutValue.lean ====
/- Graph b's read-out row, as computed from the blocks staged at the grid points, is the index-by-index
   specification of the ten argument arrays.

   First each staged block is read at explicit coordinates as an entry of its argument array: graph b's feature
   block and its four adjacency slabs sit at block index (b, slab, 0); the two weights, the read-out weight and the
   five row vectors (each argument with a unit axis put in front before the region) sit at block index zero. Then
   the four payload readings turn the first feature product, the full adjacency scratch (512 (n / 512) + n % 512 = n),
   the full second feature product and the read-out into the specification's sums, rewriting under the sums. -/
import proofs.«110909_g27616639713710_cont_9to1_58_32_alg».proof.Proof.KI.Blocks
import proofs.«110909_g27616639713710_cont_9to1_58_32_alg».proof.Proof.KI.PayValue
import proofs.«110909_g27616639713710_cont_9to1_58_32_alg».proof.Proof.Spec
import proofs.«110909_g27616639713710_cont_9to1_58_32_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Cert.KernelIdeal.PayValue
open scoped BigOperators

namespace OutValue

variable (m : (ℓ : Loc nD τ sig) → Buf (Elt Ideal) ℓ) (c : Dev nD)

/-- The grid point of slab r of graph b, as a number. -/
theorem pt_val (b r : Fin 4) : (pt b r).val = 4 * b.val + r.val := rfl

/-- The index maps of the two graph-indexed windows over the grid. -/
theorem idx_graph : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0 :=
  (by decide +kernel : ∀ t : Fin grid0.N, _)

/-- Graph b's feature block is graph b of the feature array. -/
theorem X0_apply (b : Fin 4) (n : Fin 2048) (f : Fin 512) :
    X0 (F := Ideal) m c b (ix3 0 n f) = (m ((c : Thread nD τ).loc main_arg0) : S4x2048x512.Idx → EReal) (ix3 b n f) := by
  obtain ⟨e0, e1, e2, -, -, -⟩ := idx_graph (pt b 0)
  rw [pt_val] at e0
  show V m c main_arg0 (((cfg0.win 0).blk (pt b 0)).view.emb (ix3 0 n f)) = _
  rw [V_main_arg0]
  refine congrArg _ (funext fun a => Fin.ext ?_)
  match a with
  | ⟨0, _⟩ => show win0_0.index (pt b 0) (0 : Fin 3) * 1 + 1 * 0 = b.val; have := b.isLt; omega
  | ⟨1, _⟩ => show win0_0.index (pt b 0) (1 : Fin 3) * 2048 + 1 * n.val = n.val; omega
  | ⟨2, _⟩ => show win0_0.index (pt b 0) (2 : Fin 3) * 512 + 1 * f.val = f.val; omega

/-- Slab r of graph b's adjacency block holds rows 512 r … 512 r + 511 of graph b's adjacency. -/
theorem X1_apply (b r : Fin 4) (p : Fin 512) (q : Fin 2048) :
    X1 (F := Ideal) m c b r (ix3 0 p q)
      = (m ((c : Thread nD τ).loc main_arg1) : S4x2048x2048.Idx → EReal) (ix3 b ⟨512 * r.val + p.val, by have := r.isLt; have := p.isLt; omega⟩ q) := by
  obtain ⟨-, -, -, e0, e1, e2⟩ := idx_graph (pt b r)
  rw [pt_val] at e0 e1
  show V m c main_arg1 (((cfg0.win 1).blk (pt b r)).view.emb (ix3 0 p q)) = _
  rw [V_main_arg1]
  refine congrArg _ (funext fun a => Fin.ext ?_)
  match a with
  | ⟨0, _⟩ => show win0_1.index (pt b r) (0 : Fin 3) * 1 + 1 * 0 = b.val; have := b.isLt; have := r.isLt; omega
  | ⟨1, _⟩ => show win0_1.index (pt b r) (1 : Fin 3) * 512 + 1 * p.val = 512 * r.val + p.val; have := r.isLt; omega
  | ⟨2, _⟩ => show win0_1.index (pt b r) (2 : Fin 3) * 2048 + 1 * q.val = q.val; omega

/-- The windows every point sees alike sit at block index zero. -/
theorem idx_fixed : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The first weight's block is the whole first weight. -/
theorem X4_apply (f h : Fin 512) :
    X4 (F := Ideal) m c (ix2 f h) = (m ((c : Thread nD τ).loc main_arg4) : S512x512.Idx → EReal) (ix2 f h) := by
  obtain ⟨-, -, -, -, e0, e1, -⟩ := idx_fixed (pt 0 0)
  show V m c main_arg4 (((cfg0.win 4).blk (pt 0 0)).view.emb (ix2 f h)) = _
  rw [V_main_arg4]
  refine congrArg _ (funext fun a => Fin.ext ?_)
  match a with
  | ⟨0, _⟩ => show win0_4.index (pt 0 0) (0 : Fin 2) * 512 + 1 * f.val = f.val; omega
  | ⟨1, _⟩ => show win0_4.index (pt 0 0) (1 : Fin 2) * 512 + 1 * h.val = h.val; omega

/-- The second weight's block is the whole second weight. -/
theorem X7_apply (h k : Fin 512) :
    X7 (F := Ideal) m c (ix2 h k) = (m ((c : Thread nD τ).loc main_arg7) : S512x512.Idx → EReal) (ix2 h k) := by
  obtain ⟨-, -, -, -, -, -, -, -, -, -, e0, e1, -⟩ := idx_fixed (pt 0 0)
  show V m c main_arg7 (((cfg0.win 7).blk (pt 0 0)).view.emb (ix2 h k)) = _
  rw [V_main_arg7]
  refine congrArg _ (funext fun a => Fin.ext ?_)
  match a with
  | ⟨0, _⟩ => show win0_7.index (pt 0 0) (0 : Fin 2) * 512 + 1 * h.val = h.val; omega
  | ⟨1, _⟩ => show win0_7.index (pt 0 0) (1 : Fin 2) * 512 + 1 * k.val = k.val; omega

/-- The read-out weight's block is the whole read-out weight. -/
theorem X8_apply (n : Fin 2048) (l : Fin 128) :
    X8 (F := Ideal) m c (ix2 n l) = (m ((c : Thread nD τ).loc main_arg8) : S2048x128.Idx → EReal) (ix2 n l) := by
  obtain ⟨-, -, -, -, -, -, -, -, -, -, -, -, e0, e1, -⟩ := idx_fixed (pt 0 0)
  show V m c main_arg8 (((cfg0.win 8).blk (pt 0 0)).view.emb (ix2 n l)) = _
  rw [V_main_arg8]
  refine congrArg _ (funext fun a => Fin.ext ?_)
  match a with
  | ⟨0, _⟩ => show win0_8.index (pt 0 0) (0 : Fin 2) * 2048 + 1 * n.val = n.val; omega
  | ⟨1, _⟩ => show win0_8.index (pt 0 0) (1 : Fin 2) * 128 + 1 * l.val = l.val; omega

/-- The first scale as the region finds it: the argument with a unit axis in front. -/
theorem V_v0 : (V m c main_call0_v0 : S1x512.Idx → EReal)
    = shapeCast S1x512 (m ((c : Thread nD τ).loc main_arg2) : S512.Idx → EReal) shapeCasts_S512_S1x512 := by
  show StableHlo.after hostOps0 (fun b => m (c, b)) (Proc.devRef .tc main_call0_v0) = _
  after_results
  rfl

/-- The first scale's block at (0, f) is the argument at f. -/
theorem X2_apply (f : Fin 512) :
    X2 (F := Ideal) m c (ix2 0 f) = (m ((c : Thread nD τ).loc main_arg2) : S512.Idx → EReal) (ix1 f) := by
  obtain ⟨e0, e1, -⟩ := idx_fixed (pt 0 0)
  show V m c main_call0_v0 (((cfg0.win 2).blk (pt 0 0)).view.emb (ix2 0 f)) = _
  rw [V_v0]
  refine (congrArg _ (funext fun a => Fin.ext ?_)).trans (shapeCast_a_1a_apply _ shapeCasts_S512_S1x512 (0 : Fin 1) f)
  match a with
  | ⟨0, _⟩ => show win0_2.index (pt 0 0) (0 : Fin 2) * 1 + 1 * 0 = 0; omega
  | ⟨1, _⟩ => show win0_2.index (pt 0 0) (1 : Fin 2) * 512 + 1 * f.val = f.val; omega

/-- The first shift as the region finds it: the argument with a unit axis in front. -/
theorem V_v1 : (V m c main_call0_v1 : S1x512.Idx → EReal)
    = shapeCast S1x512 (m ((c : Thread nD τ).loc main_arg3) : S512.Idx → EReal) shapeCasts_S512_S1x512 := by
  show StableHlo.after hostOps0 (fun b => m (c, b)) (Proc.devRef .tc main_call0_v1) = _
  after_results
  rfl

/-- The first shift's block at (0, f) is the argument at f. -/
theorem X3_apply (f : Fin 512) :
    X3 (F := Ideal) m c (ix2 0 f) = (m ((c : Thread nD τ).loc main_arg3) : S512.Idx → EReal) (ix1 f) := by
  have e := idx_fixed (pt 0 0)
  show V m c main_call0_v1 (((cfg0.win 3).blk (pt 0 0)).view.emb (ix2 0 f)) = _
  rw [V_v1]
  refine (congrArg _ (funext fun a => Fin.ext ?_)).trans (shapeCast_a_1a_apply _ shapeCasts_S512_S1x512 (0 : Fin 1) f)
  match a with
  | ⟨0, _⟩ => show win0_3.index (pt 0 0) (0 : Fin 2) * 1 + 1 * 0 = 0; omega
  | ⟨1, _⟩ => show win0_3.index (pt 0 0) (1 : Fin 2) * 512 + 1 * f.val = f.val; omega

/-- The second scale as the region finds it: the argument with a unit axis in front. -/
theorem V_v2 : (V m c main_call0_v2 : S1x512.Idx → EReal)
    = shapeCast S1x512 (m ((c : Thread nD τ).loc main_arg5) : S512.Idx → EReal) shapeCasts_S512_S1x512 := by
  show StableHlo.after hostOps0 (fun b => m (c, b)) (Proc.devRef .tc main_call0_v2) = _
  after_results
  rfl

/-- The second scale's block at (0, f) is the argument at f. -/
theorem X5_apply (f : Fin 512) :
    X5 (F := Ideal) m c (ix2 0 f) = (m ((c : Thread nD τ).loc main_arg5) : S512.Idx → EReal) (ix1 f) := by
  have e := idx_fixed (pt 0 0)
  show V m c main_call0_v2 (((cfg0.win 5).blk (pt 0 0)).view.emb (ix2 0 f)) = _
  rw [V_v2]
  refine (congrArg _ (funext fun a => Fin.ext ?_)).trans (shapeCast_a_1a_apply _ shapeCasts_S512_S1x512 (0 : Fin 1) f)
  match a with
  | ⟨0, _⟩ => show win0_5.index (pt 0 0) (0 : Fin 2) * 1 + 1 * 0 = 0; omega
  | ⟨1, _⟩ => show win0_5.index (pt 0 0) (1 : Fin 2) * 512 + 1 * f.val = f.val; omega

/-- The second shift as the region finds it: the argument with a unit axis in front. -/
theorem V_v3 : (V m c main_call0_v3 : S1x512.Idx → EReal)
    = shapeCast S1x512 (m ((c : Thread nD τ).loc main_arg6) : S512.Idx → EReal) shapeCasts_S512_S1x512 := by
  show StableHlo.after hostOps0 (fun b => m (c, b)) (Proc.devRef .tc main_call0_v3) = _
  after_results
  rfl

/-- The second shift's block at (0, f) is the argument at f. -/
theorem X6_apply (f : Fin 512) :
    X6 (F := Ideal) m c (ix2 0 f) = (m ((c : Thread nD τ).loc main_arg6) : S512.Idx → EReal) (ix1 f) := by
  have e := idx_fixed (pt 0 0)
  show V m c main_call0_v3 (((cfg0.win 6).blk (pt 0 0)).view.emb (ix2 0 f)) = _
  rw [V_v3]
  refine (congrArg _ (funext fun a => Fin.ext ?_)).trans (shapeCast_a_1a_apply _ shapeCasts_S512_S1x512 (0 : Fin 1) f)
  match a with
  | ⟨0, _⟩ => show win0_6.index (pt 0 0) (0 : Fin 2) * 1 + 1 * 0 = 0; omega
  | ⟨1, _⟩ => show win0_6.index (pt 0 0) (1 : Fin 2) * 512 + 1 * f.val = f.val; omega

/-- The read-out bias as the region finds it: the argument with a unit axis in front. -/
theorem V_v4 : (V m c main_call0_v4 : S1x128.Idx → EReal)
    = shapeCast S1x128 (m ((c : Thread nD τ).loc main_arg9) : S128.Idx → EReal) shapeCasts_S128_S1x128 := by
  show StableHlo.after hostOps0 (fun b => m (c, b)) (Proc.devRef .tc main_call0_v4) = _
  after_results
  rfl

/-- The read-out bias's block at (0, l) is the argument at l. -/
theorem X9_apply (f : Fin 128) :
    X9 (F := Ideal) m c (ix2 0 f) = (m ((c : Thread nD τ).loc main_arg9) : S128.Idx → EReal) (ix1 f) := by
  have e := idx_fixed (pt 0 0)
  show V m c main_call0_v4 (((cfg0.win 9).blk (pt 0 0)).view.emb (ix2 0 f)) = _
  rw [V_v4]
  refine (congrArg _ (funext fun a => Fin.ext ?_)).trans (shapeCast_a_1a_apply _ shapeCasts_S128_S1x128 (0 : Fin 1) f)
  match a with
  | ⟨0, _⟩ => show win0_9.index (pt 0 0) (0 : Fin 2) * 1 + 1 * 0 = 0; omega
  | ⟨1, _⟩ => show win0_9.index (pt 0 0) (1 : Fin 2) * 128 + 1 * f.val = f.val; omega

/-- Row n of graph b's adjacency, read in the slab that holds it. -/
theorem X1_row (b : Fin 4) (n mm : Fin 2048) :
    X1 (F := Ideal) m c b (slabOf n) (ix3 0 (inSlab n) mm)
      = (m ((c : Thread nD τ).loc main_arg1) : S4x2048x2048.Idx → EReal) (ix3 b n mm) := by
  rw [X1_apply]
  refine congrArg _ (congrArg (fun n' => ix3 b n' mm) (Fin.ext ?_))
  show 512 * (n.val / 512) + n.val % 512 = n.val
  omega

/-! The specification's ten functions of the argument arrays. -/

/-- Node features. -/
abbrev aV : Fin 4 → Fin 2048 → Fin 512 → EReal :=
  fun b n f => (m ((c : Thread nD τ).loc main_arg0) : S4x2048x512.Idx → EReal) (ix3 b n f)
/-- Adjacency. -/
abbrev aAdj : Fin 4 → Fin 2048 → Fin 2048 → EReal :=
  fun b n mm => (m ((c : Thread nD τ).loc main_arg1) : S4x2048x2048.Idx → EReal) (ix3 b n mm)
/-- First scale and shift. -/
abbrev aG1 : Fin 512 → EReal := fun f => (m ((c : Thread nD τ).loc main_arg2) : S512.Idx → EReal) (ix1 f)
abbrev aB1 : Fin 512 → EReal := fun f => (m ((c : Thread nD τ).loc main_arg3) : S512.Idx → EReal) (ix1 f)
/-- First weight. -/
abbrev aW1 : Fin 512 → Fin 512 → EReal :=
  fun f h => (m ((c : Thread nD τ).loc main_arg4) : S512x512.Idx → EReal) (ix2 f h)
/-- Second scale and shift. -/
abbrev aG2 : Fin 512 → EReal := fun f => (m ((c : Thread nD τ).loc main_arg5) : S512.Idx → EReal) (ix1 f)
abbrev aB2 : Fin 512 → EReal := fun f => (m ((c : Thread nD τ).loc main_arg6) : S512.Idx → EReal) (ix1 f)
/-- Second weight. -/
abbrev aW2 : Fin 512 → Fin 512 → EReal :=
  fun h k => (m ((c : Thread nD τ).loc main_arg7) : S512x512.Idx → EReal) (ix2 h k)
/-- Read-out weight and bias. -/
abbrev aWo : Fin 2048 → Fin 128 → EReal :=
  fun n l => (m ((c : Thread nD τ).loc main_arg8) : S2048x128.Idx → EReal) (ix2 n l)
abbrev aBo : Fin 128 → EReal := fun l => (m ((c : Thread nD τ).loc main_arg9) : S128.Idx → EReal) (ix1 l)

/-- The first feature product of graph b is the specification's. -/
theorem S1_apply (b : Fin 4) (n : Fin 2048) (h : Fin 512) :
    S1 (F := Ideal) m c b (ix2 n h) = Cert.Spec.s1 (aV m c) (aG1 m c) (aB1 m c) (aW1 m c) b n h := by
  unfold S1
  rw [pay3_apply]
  unfold Cert.Spec.s1
  have e0 : (fun f' : Fin 512 => X0 (F := Ideal) m c b (ix3 0 n f')) = aV m c b n :=
    funext fun f' => X0_apply m c b n f'
  have e2 : (fun f' : Fin 512 => X2 (F := Ideal) m c (ix2 0 f')) = aG1 m c := funext fun f' => X2_apply m c f'
  have e3 : (fun f' : Fin 512 => X3 (F := Ideal) m c (ix2 0 f')) = aB1 m c := funext fun f' => X3_apply m c f'
  rw [e0, e2, e3]
  exact Finset.sum_congr rfl fun f _ => by rw [X4_apply]

/-- The adjacency scratch, once full, holds graph b's adjacency. -/
theorem Full15_apply (b : Fin 4) (n mm : Fin 2048) :
    Full15 (F := Ideal) m c b (ix2 n mm) = aAdj m c b n mm := by
  show k0_pay5 (X1 (F := Ideal) m c b (slabOf n)) (ix2 (inSlab n) mm) = _
  rw [pay5_apply, X1_row]

/-- The second-product scratch, once full, holds the specification's second feature product. -/
theorem Full14_apply (b : Fin 4) (n : Fin 2048) (k : Fin 512) :
    Full14 (F := Ideal) m c b (ix2 n k)
      = Cert.Spec.s2 (aV m c) (aAdj m c) (aG1 m c) (aB1 m c) (aW1 m c) (aG2 m c) (aB2 m c) (aW2 m c) b n k := by
  show k0_pay1 (k0_pay6 (X6 (F := Ideal) m c)) (k0_pay7 (X1 (F := Ideal) m c b (slabOf n)) (S1 (F := Ideal) m c b))
    (k0_pay8 (X5 (F := Ideal) m c)) (X7 (F := Ideal) m c) (ix2 (inSlab n) k) = _
  rw [pay1_apply]
  unfold Cert.Spec.s2
  have eh : (fun h' : Fin 512 => max (∑ mm : Fin 2048,
        X1 (F := Ideal) m c b (slabOf n) (ix3 0 (inSlab n) mm) * S1 (F := Ideal) m c b (ix2 mm h')) 0)
      = Cert.Spec.h1 (aV m c) (aAdj m c) (aG1 m c) (aB1 m c) (aW1 m c) b n := by
    funext h'
    unfold Cert.Spec.h1
    exact congrArg (fun s => max s 0) (Finset.sum_congr rfl fun mm _ => by rw [X1_row, S1_apply])
  have e5 : (fun f' : Fin 512 => X5 (F := Ideal) m c (ix2 0 f')) = aG2 m c := funext fun f' => X5_apply m c f'
  have e6 : (fun f' : Fin 512 => X6 (F := Ideal) m c (ix2 0 f')) = aB2 m c := funext fun f' => X6_apply m c f'
  rw [eh, e5, e6]
  exact Finset.sum_congr rfl fun h _ => by rw [X7_apply]

end OutValue

open OutValue

/-- Graph b's read-out row is the specification's read-out of the ten argument arrays. -/
theorem Out_eq (m : (ℓ : Loc nD τ sig) → Buf (Elt Ideal) ℓ) (c : Dev nD) (b : Fin 4) (l : Fin 128) :
    Out (F := Ideal) m c b (ix3 0 0 l)
      = Cert.Spec.specOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 b l) := by
  unfold Out
  rw [pay2_apply]
  show _ = Cert.Spec.out (aV m c) (aAdj m c) (aG1 m c) (aB1 m c) (aW1 m c) (aG2 m c) (aB2 m c) (aW2 m c) (aWo m c) (aBo m c) b l
  unfold Cert.Spec.out Cert.Spec.src Cert.Spec.h2
  rw [X9_apply]
  refine congrArg (· + aBo m c l) (Finset.sum_congr rfl fun n _ => ?_)
  rw [X8_apply]
  refine congrArg (· * aWo m c n l) (Finset.sum_congr rfl fun k _ => ?_)
  exact congrArg (fun s => max s 0) (Finset.sum_congr rfl fun mm _ => by rw [Full15_apply, Full14_apply])

end Cert.KernelIdeal.Hand

end
-- ==== Proof.KI.Final.lean ====
/- The kernel program's result is the specification of the ten argument arrays.

   The output window's array has shape [4, 1, 128] and is written in blocks of shape [1, 1, 128]: the block of grid
   point t sits at block index (t / 4, 0, 0), and it is written back exactly at the last of a graph's four slabs
   (t % 4 = 3), when the staging buffer holds that graph's read-out row. Entry (b, 0, l) of the array lies in the block
   of point 4 b + 3, so after the region the array holds, row by row, the four read-out rows. The one operation after
   the region reshapes [4, 1, 128] to [4, 128]; in row-major order (b · 1 + 0) · 128 + l = b · 128 + l, so entry (b, l)
   of the result is entry (b, 0, l) of the array: the specification's read-out at (b, l). The ten argument arrays end
   as they were launched. -/
import proofs.«110909_g27616639713710_cont_9to1_58_32_alg».proof.Proof.KI.Data
import proofs.«110909_g27616639713710_cont_9to1_58_32_alg».proof.Proof.KI.OutValue
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The result array of the kernel program: row b is graph b's read-out row. -/
def Rows : S4x1x128.Idx → Elt Ideal .f32 :=
  fun j => Out (F := Ideal) m c ⟨(j 0).val, (j 0).isLt⟩ (ix3 0 0 ⟨(j 2).val, (j 2).isLt⟩)

/-- Graph b's read-out row at a block index y is the array's entry at any index k whose first coordinate is b and whose
    last coordinate is y's (the two unit axes carry no information). -/
theorem Rows_at (b : Fin 4) (y : S1x1x128.Idx) (k : S4x1x128.Idx) (h0 : (k 0).val = b.val) (h2 : (k 2).val = (y 2).val) :
    Out (F := Ideal) m c b y = Rows m c k := by
  unfold Rows
  have e1 : b = ⟨(k 0).val, (k 0).isLt⟩ := Fin.ext h0.symm
  have e2 : y = ix3 0 0 ⟨(k 2).val, (k 2).isLt⟩ := by
    funext a
    apply Fin.ext
    match a with
    | ⟨0, _⟩ => show (y 0).val = 0; have h : (y 0).val < 1 := (y 0).isLt; omega
    | ⟨1, _⟩ => show (y 1).val = 0; have h : (y 1).val < 1 := (y 1).isLt; omega
    | ⟨2, _⟩ => show (y 2).val = (k 2).val; exact h2.symm
  exact congr (congrArg (Out (F := Ideal) m c) e1) e2

/-- The output window's index map over the grid: point t writes block (t / 4, 0, 0). -/
theorem idx10 : ∀ t : Fin cfg0.N, win0_10.index t (0 : Fin 3) = t.val / 4 ∧ win0_10.index t (1 : Fin 3) = 0 ∧ win0_10.index t (2 : Fin 3) = 0 :=
  (by decide +kernel : ∀ t : Fin grid0.N, win0_10.index t (0 : Fin 3) = t.val / 4 ∧ win0_10.index t (1 : Fin 3) = 0 ∧ win0_10.index t (2 : Fin 3) = 0)

/-- What point t writes back is block t of the rows: block coordinate × block extent + the coordinate inside the block
    is (t / 4) · 1 + 0 on the first axis and 0 · 128 + l on the last. -/
theorem flushed10_eq (t : Fin cfg0.N) :
    (dats (F := Ideal) m 0 c).flushed 10 t = ((cfg0.win 10).blk t).view.read (Elt Ideal) (Rows m c) := by
  show (cfg0.win 10).cut (grid0.coords t) ((dats (F := Ideal) m 0 c).after 10 t) = _
  rw [after10]
  obtain ⟨e0, e1, e2⟩ := idx10 t
  funext y
  show Out (F := Ideal) m c (graphOf t) y = Rows m c (((cfg0.win 10).blk t).view.emb y)
  refine Rows_at m c (graphOf t) y _ ?_ ?_
  · show win0_10.index t (0 : Fin 3) * 1 + 1 * (y 0).val = t.val / 4
    have h : (y 0).val < 1 := (y 0).isLt
    omega
  · show win0_10.index t (2 : Fin 3) * 128 + 1 * (y 2).val = (y 2).val
    omega

/-- An index of the array is in point t's block iff each coordinate is in the block's range on its axis. -/
theorem mem_blk10 (t : Fin cfg0.N) (i : S4x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_call0_v5).slice (win0_10.rect t)).set ↔ _
  rw [View.set_slice_whole, Rect.mem_set_unit]
  exact Iff.rfl

/-- Every index (b, 0, l) of the array lies in the block of point 4 b + 3, the last slab of graph b, which writes back. -/
theorem cover10 (i : S4x1x128.Idx) :
    ∃ t : Fin cfg0.N, (cfg0.win 10).flush t = true ∧ i ∈ ((cfg0.win 10).blk t).view.set := by
  have hi0 : (i 0).val < 4 := (i 0).isLt
  have hi1 : (i 1).val < 1 := (i 1).isLt
  have hi2 : (i 2).val < 128 := (i 2).isLt
  obtain ⟨t, ht⟩ : ∃ t : Fin cfg0.N, t.val = 4 * (i 0).val + 3 :=
    ⟨⟨4 * (i 0).val + 3, by rw [show cfg0.N = 16 from N_0]; omega⟩, rfl⟩
  obtain ⟨e0, e1, e2⟩ := idx10 t
  refine ⟨t, (flush10_iff t).mpr (by omega), ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 128 ≤ (i 2).val ∧ (i 2).val < win0_10.index t (2 : Fin 3) * 128 + 128; omega

/-- The output window's array after the region: the four read-out rows. -/
theorem final10 : (dats (F := Ideal) m 0 c).arrAt 10 cfg0.N = Rows m c :=
  (dats (F := Ideal) m 0 c).arrAt_eq_of_cover 10 (Rows m c) (fun t _ => flushed10_eq m c t) (cover10)

/-- The program's result: the reshape of the rows, entry (b, l) from entry (b, 0, l), is the specification's read-out. -/
theorem result (m : (ℓ : Loc nD τ sig) → Buf (Elt Ideal) ℓ) (c : Dev nD) :
    Pipeline.afterTail₀ cfgs (dats (F := Ideal) m) 0 (V0 m) [hostOps1] c main_v0
      = Cert.Spec.specOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hW : Pipeline.withArrays (cfgs 0).spec c (V0 m c) (fun w => (dats (F := Ideal) m 0 c).arrAt w (cfgs 0).N) (Proc.devRef .tc main_call0_v5) = Rows m c :=
    (Pipeline.withArrays_arr spec0 launch0.win.arr_inj c _ _ 10).trans (final10 m c)
  unfold Pipeline.afterTail₀
  show StableHlo.after hostOps1 _ (Proc.devRef .tc main_v0) = _
  after_results
  funext j
  obtain ⟨b, l, rfl⟩ : ∃ (b : Fin 4) (l : Fin 128), j = ix2 b l := ⟨j 0, j 1, eq_ix2 j⟩
  show shapeCast S4x128 (Pipeline.withArrays (cfgs 0).spec c (V0 m c) (fun w => (dats (F := Ideal) m 0 c).arrAt w (cfgs 0).N) (Proc.devRef .tc main_call0_v5)) shapeCasts_S4x1x128_S4x128 (ix2 b l) = _
  refine (congrArg (fun x => shapeCast S4x128 x shapeCasts_S4x1x128_S4x128 (ix2 b l)) hW).trans ?_
  refine (shapeCast_apply (Rows m c) shapeCasts_S4x1x128_S4x128 (ix2 b l) (ix3 b 0 l) ?_).trans ?_
  · rw [Shape.rowMajor_val_three, Shape.rowMajor_val_two]
    show (b.val * 1 + 0) * 128 + l.val = b.val * 128 + l.val
    omega
  · exact Out_eq m c b l

/-- The frame run re-posted: the result at the specification of the arguments, each argument array as launched (a
    staged one never written by the region, the others bypassing it, none written by the operations around it). -/
theorem value_run (m : (ℓ : Loc nD τ sig) → Buf (Elt Ideal) ℓ) (ρ : Dev nD → PrngReg)
    (h : θ_run defs (onTc (τ := τ) (main (F := Ideal))) (s₀ m ρ) (Pipeline.FramePost cfgs (dats m) 0 (Pipeline.afterTail₀ cfgs (dats m) 0 (V0 m) [hostOps1]))) :
    θ_run defs (onTc (τ := τ) (main (F := Ideal))) ⟨m, fun _ => 0, ρ⟩ (fun r => ∀ c : Dev nD,
      r.2.mem ((c.tc : Thread nD τ).loc main_v0) = Cert.Spec.specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v0 (Pipeline.mem_restRefs_of main_v0 (by decide) (by decide))).trans (result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c))⟩) h

end Cert.KernelIdeal.Hand

end
-- ==== Proof.Ref.Term.lean ====
/- The reference program's result as one function of its ten arguments: the host operations of @main composed in
   order, stage by stage (row mean, centring, the variance with its degrees-of-freedom argument, the normalisation
   with the square root as a divisor, the two products of a layer, the positive part; twice; then the feature sum,
   the read-out product and the bias). -/
import proofs.«110909_g27616639713710_cont_9to1_58_32_alg».proof.Proof.Gen.ReferenceIdeal

noncomputable section

namespace Cert.ReferenceIdeal.RefTerm

open Cert.ReferenceIdeal Cert.ReferenceIdeal.Facts₀ Idealize.ShloMosaic Idealize.SL.Sem

variable {F : FTy → Type} [FloatOps F]

/-- The sum of each row of 512 features. -/
def rowSum (x : FVec F S4x2048x512 .f32) : FVec F S4x2048 .f32 :=
  Host.reduceAdd x (constant S_ .f32 0x00000000#32) reducesTo_S4x2048x512_S4x2048_d2 h_S_

/-- The mean of each row, kept with a unit last axis. -/
def rowMean (x : FVec F S4x2048x512 .f32) : FVec F S4x2048x1 .f32 :=
  Host.divf (broadcastInDim S4x2048x1 ![0, 1] bcast_S4x2048_S4x2048x1_0_1 (rowSum x))
    (broadcastInDim S4x2048x1 ![] bcast_S_S4x2048x1 (constant S_ .f32 0x44000000#32))

/-- Each entry minus its row's mean. -/
def centred (x : FVec F S4x2048x512 .f32) : FVec F S4x2048x512 .f32 :=
  subf x (broadcastInDim S4x2048x512 ![0, 1, 2] bcast_S4x2048x1_S4x2048x512_0_1_2 (rowMean x))

/-- The variance of each row with `ddof` degrees of freedom taken off the divisor: the sum of squared deviations
    over 512 − ddof where that is positive, a not-a-number pattern otherwise. -/
def rowVar (x : FVec F S4x2048x512 .f32) (ddof : IVec S_ 32) : FVec F S4x2048x1 .f32 :=
  select (broadcastInDim S4x2048x1 ![] bcast_S_S4x2048x1
      (cmpf .ogt (subf (constant (F := F) S_ .f32 0x44000000#32) (sitofp (F := F) .f32 ddof)) (constant (F := F) S_ .f32 0x00000000#32)))
    (Host.divf (broadcastInDim S4x2048x1 ![0, 1] bcast_S4x2048_S4x2048x1_0_1 (rowSum (mulf (centred x) (centred x))))
      (broadcastInDim S4x2048x1 ![] bcast_S_S4x2048x1 (subf (constant S_ .f32 0x44000000#32) (sitofp .f32 ddof))))
    (broadcastInDim S4x2048x1 ![] bcast_S_S4x2048x1 (id (constant S_ .f32 0x7FC00000#32)))

/-- A length-512 vector repeated along every row of every graph. -/
def alongRows (g : FVec F S512 .f32) : FVec F S4x2048x512 .f32 :=
  broadcastInDim S4x2048x512 ![0, 1, 2] bcast_S1x1x512_S4x2048x512_0_1_2 (broadcastInDim S1x1x512 ![2] bcast_S512_S1x1x512_2 g)

/-- The row normalisation: scale times the centred entry, over the square root of variance plus the small constant,
    plus the shift. -/
def layerNorm (x : FVec F S4x2048x512 .f32) (g b : FVec F S512 .f32) : FVec F S4x2048x512 .f32 :=
  addf (Host.divf (mulf (alongRows g) (centred x))
      (broadcastInDim S4x2048x512 ![0, 1, 2] bcast_S4x2048x1_S4x2048x512_0_1_2
        (Host.sqrt (addf (rowVar x (constantI S_ 32 0#32))
          (broadcastInDim S4x2048x1 ![] bcast_S_S4x2048x1 (constant S_ .f32 0x3727C5AC#32))))))
    (alongRows b)

/-- The positive part. -/
def relu (x : FVec F S4x2048x512 .f32) : FVec F S4x2048x512 .f32 :=
  maximumf x (broadcastInDim S4x2048x512 ![] bcast_S_S4x2048x512 (constant S_ .f32 0x00000000#32))

/-- One layer: normalise, multiply by the weight, propagate along the adjacency, take the positive part. -/
def layer (x : FVec F S4x2048x512 .f32) (adj : FVec F S4x2048x2048 .f32) (g b : FVec F S512 .f32) (W : FVec F S512x512 .f32) :
    FVec F S4x2048x512 .f32 :=
  relu (Host.dotGeneral dot_S4x2048x2048_S4x2048x512_S4x2048x512_2_1_1_2_0_0 none adj
    (Host.dotGeneral dot_S4x2048x512_S512x512_S4x2048x512_2_0_01_1_n_n none (layerNorm x g b) W))

/-- The whole reference: two layers, each node's feature sum, the read-out product and the bias. -/
def refTerm (a0 : FVec F S4x2048x512 .f32) (a1 : FVec F S4x2048x2048 .f32) (a2 a3 : FVec F S512 .f32) (a4 : FVec F S512x512 .f32)
    (a5 a6 : FVec F S512 .f32) (a7 : FVec F S512x512 .f32) (a8 : FVec F S2048x128 .f32) (a9 : FVec F S128 .f32) : FVec F S4x128 .f32 :=
  addf (Host.dotGeneral dot_S4x2048_S2048x128_S4x128_1_0_0_1_n_n none
      (rowSum (layer (layer a0 a1 a2 a3 a4) a1 a5 a6 a7)) a8)
    (broadcastInDim S4x128 ![0, 1] bcast_S1x128_S4x128_0_1 (broadcastInDim S1x128 ![1] bcast_S128_S1x128_1 a9))

end Cert.ReferenceIdeal.RefTerm

end
-- ==== Proof.Ref.Run.lean ====
/- The run of the reference program read back. @main is one straight line of host operations once its four calls are
   opened: its own fifty-two operations and, at each call, the callee's operations over that call's buffers (the row
   variance: twenty operations and the three of the selection it calls; the positive part: three). From that line,
   every weakly fair execution terminates with the result buffer at the composed term of the ten arguments — the
   function `RefTerm.refTerm` — and with each argument unchanged. -/
import proofs.«110909_g27616639713710_cont_9to1_58_32_alg».proof.Proof.Gen.ReferenceIdeal
import proofs.«110909_g27616639713710_cont_9to1_58_32_alg».proof.Proof.Ref.Term
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's operations in order, each call replaced by its callee's operations over the buffers that call names (a
    callee's argument read at the caller's buffer, its returned value written to the buffer of the call's result). -/
abbrev ops : List (HloOp τ sig (Elt F)) :=
    -- the first layer: the row mean of the input
  [ nullary main_cst (constant S_ .f32 0x00000000#32),
    binary main_arg0 main_cst main_v0 (fun x v => Host.reduceAdd x v reducesTo_S4x2048x512_S4x2048_d2 h_S_),
    unary main_v0 main_v1 (broadcastInDim S4x2048x1 ![0, 1] bcast_S4x2048_S4x2048x1_0_1),
    nullary main_cst_0 (constant S_ .f32 0x44000000#32),
    unary main_cst_0 main_v2 (broadcastInDim S4x2048x1 ![] bcast_S_S4x2048x1),
    binary main_v1 main_v2 main_v3 Host.divf,
    nullary main_c (constantI S_ 32 0#32),
    -- its row variance (the variance function's twenty operations, then the selection's three)
    nullary main_call0_cst (constant S_ .f32 0x00000000#32),
    binary main_arg0 main_call0_cst main_call0_v0 (fun x v => Host.reduceAdd x v reducesTo_S4x2048x512_S4x2048_d2 h_S_),
    unary main_call0_v0 main_call0_v1 (broadcastInDim S4x2048x1 ![0, 1] bcast_S4x2048_S4x2048x1_0_1),
    nullary main_call0_cst_0 (constant S_ .f32 0x44000000#32),
    unary main_call0_cst_0 main_call0_v2 (broadcastInDim S4x2048x1 ![] bcast_S_S4x2048x1),
    binary main_call0_v1 main_call0_v2 main_call0_v3 Host.divf,
    unary main_call0_v3 main_call0_v4 (broadcastInDim S4x2048x512 ![0, 1, 2] bcast_S4x2048x1_S4x2048x512_0_1_2),
    binary main_arg0 main_call0_v4 main_call0_v5 subf,
    binary main_call0_v5 main_call0_v5 main_call0_v6 mulf,
    unary main_c main_call0_v7 (sitofp .f32),
    nullary main_call0_cst_1 (constant S_ .f32 0x44000000#32),
    binary main_call0_cst_1 main_call0_v7 main_call0_v8 subf,
    nullary main_call0_cst_2 (constant S_ .f32 0x00000000#32),
    binary main_call0_v6 main_call0_cst_2 main_call0_v9 (fun x v => Host.reduceAdd x v reducesTo_S4x2048x512_S4x2048_d2 h_S_),
    unary main_call0_v9 main_call0_v10 (broadcastInDim S4x2048x1 ![0, 1] bcast_S4x2048_S4x2048x1_0_1),
    unary main_call0_v8 main_call0_v11 (broadcastInDim S4x2048x1 ![] bcast_S_S4x2048x1),
    binary main_call0_v10 main_call0_v11 main_call0_v12 Host.divf,
    nullary main_call0_cst_3 (constant S_ .f32 0x00000000#32),
    binary main_call0_v8 main_call0_cst_3 main_call0_v13 (cmpf .ogt),
    nullary main_call0_cst_4 (constant S_ .f32 0x7FC00000#32),
    unary main_call0_cst_4 main_call0_call0_v0 id,
    unary main_call0_call0_v0 main_call0_call0_v1 (broadcastInDim S4x2048x1 ![] bcast_S_S4x2048x1),
    ternary main_call0_v13 main_call0_v12 main_call0_call0_v1 main_v4 (fun p a b => select (broadcastInDim S4x2048x1 ![] bcast_S_S4x2048x1 p) a b),
    -- the normalisation, the weight product and the propagation along the adjacency
    unary main_v3 main_v5 (broadcastInDim S4x2048x512 ![0, 1, 2] bcast_S4x2048x1_S4x2048x512_0_1_2),
    binary main_arg0 main_v5 main_v6 subf,
    unary main_arg2 main_v7 (broadcastInDim S1x1x512 ![2] bcast_S512_S1x1x512_2),
    unary main_v7 main_v8 (broadcastInDim S4x2048x512 ![0, 1, 2] bcast_S1x1x512_S4x2048x512_0_1_2),
    binary main_v8 main_v6 main_v9 mulf,
    nullary main_cst_1 (constant S_ .f32 0x3727C5AC#32),
    unary main_cst_1 main_v10 (broadcastInDim S4x2048x1 ![] bcast_S_S4x2048x1),
    binary main_v4 main_v10 main_v11 addf,
    unary main_v11 main_v12 Host.sqrt,
    unary main_v12 main_v13 (broadcastInDim S4x2048x512 ![0, 1, 2] bcast_S4x2048x1_S4x2048x512_0_1_2),
    binary main_v9 main_v13 main_v14 Host.divf,
    unary main_arg3 main_v15 (broadcastInDim S1x1x512 ![2] bcast_S512_S1x1x512_2),
    unary main_v15 main_v16 (broadcastInDim S4x2048x512 ![0, 1, 2] bcast_S1x1x512_S4x2048x512_0_1_2),
    binary main_v14 main_v16 main_v17 addf,
    binary main_v17 main_arg4 main_v18 (fun l r => Host.dotGeneral dot_S4x2048x512_S512x512_S4x2048x512_2_0_01_1_n_n none l r),
    binary main_arg1 main_v18 main_v19 (fun l r => Host.dotGeneral dot_S4x2048x2048_S4x2048x512_S4x2048x512_2_1_1_2_0_0 none l r),
    -- the positive part
    nullary main_call1_cst (constant S_ .f32 0x00000000#32),
    unary main_call1_cst main_call1_v0 (broadcastInDim S4x2048x512 ![] bcast_S_S4x2048x512),
    binary main_v19 main_call1_v0 main_v20 maximumf,
    -- the second layer: the same stages over the first layer's result
    nullary main_cst_2 (constant S_ .f32 0x00000000#32),
    binary main_v20 main_cst_2 main_v21 (fun x v => Host.reduceAdd x v reducesTo_S4x2048x512_S4x2048_d2 h_S_),
    unary main_v21 main_v22 (broadcastInDim S4x2048x1 ![0, 1] bcast_S4x2048_S4x2048x1_0_1),
    nullary main_cst_3 (constant S_ .f32 0x44000000#32),
    unary main_cst_3 main_v23 (broadcastInDim S4x2048x1 ![] bcast_S_S4x2048x1),
    binary main_v22 main_v23 main_v24 Host.divf,
    nullary main_c_4 (constantI S_ 32 0#32),
    nullary main_call2_cst (constant S_ .f32 0x00000000#32),
    binary main_v20 main_call2_cst main_call2_v0 (fun x v => Host.reduceAdd x v reducesTo_S4x2048x512_S4x2048_d2 h_S_),
    unary main_call2_v0 main_call2_v1 (broadcastInDim S4x2048x1 ![0, 1] bcast_S4x2048_S4x2048x1_0_1),
    nullary main_call2_cst_0 (constant S_ .f32 0x44000000#32),
    unary main_call2_cst_0 main_call2_v2 (broadcastInDim S4x2048x1 ![] bcast_S_S4x2048x1),
    binary main_call2_v1 main_call2_v2 main_call2_v3 Host.divf,
    unary main_call2_v3 main_call2_v4 (broadcastInDim S4x2048x512 ![0, 1, 2] bcast_S4x2048x1_S4x2048x512_0_1_2),
    binary main_v20 main_call2_v4 main_call2_v5 subf,
    binary main_call2_v5 main_call2_v5 main_call2_v6 mulf,
    unary main_c_4 main_call2_v7 (sitofp .f32),
    nullary main_call2_cst_1 (constant S_ .f32 0x44000000#32),
    binary main_call2_cst_1 main_call2_v7 main_call2_v8 subf,
    nullary main_call2_cst_2 (constant S_ .f32 0x00000000#32),
    binary main_call2_v6 main_call2_cst_2 main_call2_v9 (fun x v => Host.reduceAdd x v reducesTo_S4x2048x512_S4x2048_d2 h_S_),
    unary main_call2_v9 main_call2_v10 (broadcastInDim S4x2048x1 ![0, 1] bcast_S4x2048_S4x2048x1_0_1),
    unary main_call2_v8 main_call2_v11 (broadcastInDim S4x2048x1 ![] bcast_S_S4x2048x1),
    binary main_call2_v10 main_call2_v11 main_call2_v12 Host.divf,
    nullary main_call2_cst_3 (constant S_ .f32 0x00000000#32),
    binary main_call2_v8 main_call2_cst_3 main_call2_v13 (cmpf .ogt),
    nullary main_call2_cst_4 (constant S_ .f32 0x7FC00000#32),
    unary main_call2_cst_4 main_call2_call0_v0 id,
    unary main_call2_call0_v0 main_call2_call0_v1 (broadcastInDim S4x2048x1 ![] bcast_S_S4x2048x1),
    ternary main_call2_v13 main_call2_v12 main_call2_call0_v1 main_v25 (fun p a b => select (broadcastInDim S4x2048x1 ![] bcast_S_S4x2048x1 p) a b),
    unary main_v24 main_v26 (broadcastInDim S4x2048x512 ![0, 1, 2] bcast_S4x2048x1_S4x2048x512_0_1_2),
    binary main_v20 main_v26 main_v27 subf,
    unary main_arg5 main_v28 (broadcastInDim S1x1x512 ![2] bcast_S512_S1x1x512_2),
    unary main_v28 main_v29 (broadcastInDim S4x2048x512 ![0, 1, 2] bcast_S1x1x512_S4x2048x512_0_1_2),
    binary main_v29 main_v27 main_v30 mulf,
    nullary main_cst_5 (constant S_ .f32 0x3727C5AC#32),
    unary main_cst_5 main_v31 (broadcastInDim S4x2048x1 ![] bcast_S_S4x2048x1),
    binary main_v25 main_v31 main_v32 addf,
    unary main_v32 main_v33 Host.sqrt,
    unary main_v33 main_v34 (broadcastInDim S4x2048x512 ![0, 1, 2] bcast_S4x2048x1_S4x2048x512_0_1_2),
    binary main_v30 main_v34 main_v35 Host.divf,
    unary main_arg6 main_v36 (broadcastInDim S1x1x512 ![2] bcast_S512_S1x1x512_2),
    unary main_v36 main_v37 (broadcastInDim S4x2048x512 ![0, 1, 2] bcast_S1x1x512_S4x2048x512_0_1_2),
    binary main_v35 main_v37 main_v38 addf,
    binary main_v38 main_arg7 main_v39 (fun l r => Host.dotGeneral dot_S4x2048x512_S512x512_S4x2048x512_2_0_01_1_n_n none l r),
    binary main_arg1 main_v39 main_v40 (fun l r => Host.dotGeneral dot_S4x2048x2048_S4x2048x512_S4x2048x512_2_1_1_2_0_0 none l r),
    nullary main_call3_cst (constant S_ .f32 0x00000000#32),
    unary main_call3_cst main_call3_v0 (broadcastInDim S4x2048x512 ![] bcast_S_S4x2048x512),
    binary main_v40 main_call3_v0 main_v41 maximumf,
    -- each node's feature sum, the read-out product and the bias
    nullary main_cst_6 (constant S_ .f32 0x00000000#32),
    binary main_v41 main_cst_6 main_v42 (fun x v => Host.reduceAdd x v reducesTo_S4x2048x512_S4x2048_d2 h_S_),
    binary main_v42 main_arg8 main_v43 (fun l r => Host.dotGeneral dot_S4x2048_S2048x128_S4x128_1_0_0_1_n_n none l r),
    unary main_arg9 main_v44 (broadcastInDim S1x128 ![1] bcast_S128_S1x128_1),
    unary main_v44 main_v45 (broadcastInDim S4x128 ![0, 1] bcast_S1x128_S4x128_0_1),
    binary main_v43 main_v45 main_v46 addf ]

-- one hundred and four steps: unfolding the chain of binds recurses once per operation
set_option maxRecDepth 8192 in
set_option maxHeartbeats 4000000 in
/-- @main is that straight line: a callee's body at its call is its operations at the call's buffers, a typed
    reference's transport of contents the identity at a literal buffer, and sequencing re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., binary_bufs_sub .., binary_bufs_sub .., nullary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., unary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., binary_bufs_sub .., binary_bufs_sub .., nullary_bufs_sub ..,
    unary_bufs_sub .., binary_bufs_sub .., nullary_bufs_sub .., binary_bufs_sub .., binary_bufs_sub .., unary_bufs_sub ..,
    unary_bufs_sub .., binary_bufs_sub ..⟩

set_option maxRecDepth 8192 in
set_option maxHeartbeats 40000000 in
/-- The result buffer after the line, from any contents: each operation's value at its own buffer is its function of
    its operands' values, every other buffer keeps what it held; composed from the last operation back to the
    arguments this is the stages of `RefTerm.refTerm`, in the same order. -/
theorem result_eq (V : Valuation τ sig (Elt F)) :
    after ops V (main_v46 : DevRef τ sig) = RefTerm.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

-- no operation writes an argument's buffer
set_option maxRecDepth 8192 in
set_option maxHeartbeats 2000000 in
theorem arg0_eq (V : Valuation τ sig (Elt F)) : after ops V (main_arg0 : DevRef τ sig) = V (main_arg0 : DevRef τ sig) := by
  after_results_simp
set_option maxRecDepth 8192 in
set_option maxHeartbeats 2000000 in
theorem arg1_eq (V : Valuation τ sig (Elt F)) : after ops V (main_arg1 : DevRef τ sig) = V (main_arg1 : DevRef τ sig) := by
  after_results_simp
set_option maxRecDepth 8192 in
set_option maxHeartbeats 2000000 in
theorem arg2_eq (V : Valuation τ sig (Elt F)) : after ops V (main_arg2 : DevRef τ sig) = V (main_arg2 : DevRef τ sig) := by
  after_results_simp
set_option maxRecDepth 8192 in
set_option maxHeartbeats 2000000 in
theorem arg3_eq (V : Valuation τ sig (Elt F)) : after ops V (main_arg3 : DevRef τ sig) = V (main_arg3 : DevRef τ sig) := by
  after_results_simp
set_option maxRecDepth 8192 in
set_option maxHeartbeats 2000000 in
theorem arg4_eq (V : Valuation τ sig (Elt F)) : after ops V (main_arg4 : DevRef τ sig) = V (main_arg4 : DevRef τ sig) := by
  after_results_simp
set_option maxRecDepth 8192 in
set_option maxHeartbeats 2000000 in
theorem arg5_eq (V : Valuation τ sig (Elt F)) : after ops V (main_arg5 : DevRef τ sig) = V (main_arg5 : DevRef τ sig) := by
  after_results_simp
set_option maxRecDepth 8192 in
set_option maxHeartbeats 2000000 in
theorem arg6_eq (V : Valuation τ sig (Elt F)) : after ops V (main_arg6 : DevRef τ sig) = V (main_arg6 : DevRef τ sig) := by
  after_results_simp
set_option maxRecDepth 8192 in
set_option maxHeartbeats 2000000 in
theorem arg7_eq (V : Valuation τ sig (Elt F)) : after ops V (main_arg7 : DevRef τ sig) = V (main_arg7 : DevRef τ sig) := by
  after_results_simp
set_option maxRecDepth 8192 in
set_option maxHeartbeats 2000000 in
theorem arg8_eq (V : Valuation τ sig (Elt F)) : after ops V (main_arg8 : DevRef τ sig) = V (main_arg8 : DevRef τ sig) := by
  after_results_simp
set_option maxRecDepth 8192 in
set_option maxHeartbeats 2000000 in
theorem arg9_eq (V : Valuation τ sig (Elt F)) : after ops V (main_arg9 : DevRef τ sig) = V (main_arg9 : DevRef τ sig) := by
  after_results_simp

set_option maxRecDepth 8192 in
/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run defs _ _).mono (fun _ h c => ⟨(h c main_v46).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.Ref.Value.lean ====
/- The reference's result, read over the extended reals with exact operations, is the specification index by index.

   One reading per stage, each at explicit coordinates: the sum of a row; the row's mean; the centred entries; the mean
   square deviation (no degree of freedom is taken off, so its divisor is the positive row length and the guarded
   branch is the quotient); the normalisation with the square root as a divisor, which equals the one with the inverse
   square root as a factor; the feature product, the propagation along the adjacency and the positive part of a layer;
   then the two layers in turn, each node's feature sum, the read-out product and the bias. The two products with three
   axes are read through their contraction index, each operand coordinate identified axis by axis. -/
import proofs.«110909_g27616639713710_cont_9to1_58_32_alg».proof.Proof.Ref.Term
import proofs.«110909_g27616639713710_cont_9to1_58_32_alg».proof.Proof.Spec
import proofs.«110909_g27616639713710_cont_9to1_58_32_alg».proof.Proof.SpecLemmas
import proofs.«110909_g27616639713710_cont_9to1_58_32_alg».proof.Proof.LibDotPlain
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Facts₀ Idealize.ShloMosaic Idealize.SL.Sem Idealize.ShloMosaic.ValueIdx
open scoped BigOperators

/-! ## The sum of a row -/

/-- The sum of a row of 512 features: the zero initial value plus the sum over the row's coordinates. -/
theorem rowSum_apply (x : FVec Ideal S4x2048x512 .f32) (b : Fin 4) (n : Fin 2048) :
    RefTerm.rowSum (F := Ideal) x (ix2 b n) = ∑ f : Fin 512, x (ix3 b n f) := by
  have h : S4x2048x512.Reduces [2] S4x2048 := by decide
  have e : RefTerm.rowSum (F := Ideal) x (ix2 b n)
      = Ideal.hostReduceAdd reducesTo_S4x2048x512_S4x2048_d2 x (Ideal.ofBits .f32 0x00000000#32) (ix2 b n) := rfl
  rw [e, Ideal.hostReduceAdd_single _ h, Ideal.ofBits_zero_f32, zero_add]
  refine Finset.sum_congr rfl fun f _ => congrArg x ?_
  funext a
  match a with
  | ⟨0, _⟩ => exact Fin.ext rfl
  | ⟨1, _⟩ => exact Fin.ext rfl
  | ⟨2, _⟩ => exact Fin.ext rfl

/-! ## The operand coordinates of a product with batch and free axes -/

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- On a batch axis the left operand reads the result's coordinate at the axis's place among the batch axes. -/
theorem lhsIdx_val_batch {sl sr so : Shape} (d : DotDims sl sr so) {a : Fin sl.rank} (hb : a ∈ d.lhsBatch)
    (j : so.Idx) (k : d.contr.Idx) (p : Nat) (hp : p < so.rank) (hpos : d.lhsBatch.idxOf a = p) :
    (d.lhsIdx j k a).val = (j ⟨p, hp⟩).val := by
  unfold DotDims.lhsIdx
  rw [dif_pos hb]
  simp only [Fin.val_cast]
  exact val_congr j _ _ _ _ hpos

/-- On a free axis the left operand reads the result's coordinate after the batch axes, at the axis's place among
    the free axes. -/
theorem lhsIdx_val_free {sl sr so : Shape} (d : DotDims sl sr so) {a : Fin sl.rank} (hb : a ∉ d.lhsBatch)
    (hn : a ∈ d.lhsNonContracting) (j : so.Idx) (k : d.contr.Idx) (p : Nat) (hp : p < so.rank)
    (hpos : d.lhsBatch.length + d.lhsNonContracting.idxOf a = p) :
    (d.lhsIdx j k a).val = (j ⟨p, hp⟩).val := by
  unfold DotDims.lhsIdx
  rw [dif_neg hb, dif_pos hn]
  simp only [Fin.val_cast]
  exact val_congr j _ _ _ _ hpos

/-- On a batch axis the right operand reads the result's coordinate at the axis's place among the batch axes. -/
theorem rhsIdx_val_batch {sl sr so : Shape} (d : DotDims sl sr so) {a : Fin sr.rank} (hb : a ∈ d.rhsBatch)
    (j : so.Idx) (k : d.contr.Idx) (p : Nat) (hp : p < so.rank) (hpos : d.rhsBatch.idxOf a = p) :
    (d.rhsIdx j k a).val = (j ⟨p, hp⟩).val := by
  unfold DotDims.rhsIdx
  rw [dif_pos hb]
  simp only [Fin.val_cast]
  exact val_congr j _ _ _ _ hpos

/-- On a free axis the right operand reads the result's coordinate after the batch axes and the left operand's free
    axes, at the axis's place among its own free axes. -/
theorem rhsIdx_val_free {sl sr so : Shape} (d : DotDims sl sr so) {a : Fin sr.rank} (hb : a ∉ d.rhsBatch)
    (hn : a ∈ d.rhsNonContracting) (j : so.Idx) (k : d.contr.Idx) (p : Nat) (hp : p < so.rank)
    (hpos : d.lhsBatch.length + d.lhsNonContracting.length + d.rhsNonContracting.idxOf a = p) :
    (d.rhsIdx j k a).val = (j ⟨p, hp⟩).val := by
  unfold DotDims.rhsIdx
  rw [dif_neg hb, dif_pos hn]
  simp only [Fin.val_cast]
  exact val_congr j _ _ _ _ hpos

/-! ## The three products at an index -/

/-- Rows of every graph times a shared weight: entry (b, n, h) is the sum over f of l (b, n, f) · W (f, h). -/
theorem sum_feature {B N K H : Nat} (d : DotDims ⟨3, ![B, N, K]⟩ ⟨2, ![K, H]⟩ ⟨3, ![B, N, H]⟩)
    (hlb : d.lhsBatch = []) (hrb : d.rhsBatch = []) (hlc : d.lhsContracting = [2]) (hrc : d.rhsContracting = [0])
    (hln : d.lhsNonContracting = [0, 1]) (hrn : d.rhsNonContracting = [1])
    (l : (⟨3, ![B, N, K]⟩ : Shape).Idx → EReal) (r : (⟨2, ![K, H]⟩ : Shape).Idx → EReal) (b : Fin B) (n : Fin N) (h : Fin H) :
    (∑ k : d.contr.Idx, l (d.lhsIdx (ix3 b n h) k) * r (d.rhsIdx (ix3 b n h) k)) = ∑ k : Fin K, l (ix3 b n k) * r (ix2 k h) := by
  have hr : d.contr.rank = 1 := DotPlain.contr_rank_one d hlc
  have hs : d.contr.size ⟨0, by omega⟩ = K := DotPlain.contr_size_zero d hlc
  rw [← Equiv.sum_comp (contrEquiv1 d K hr hs).symm]
  refine Finset.sum_congr rfl fun k _ => ?_
  have hnb : ∀ a, a ∉ d.lhsBatch := fun a => by rw [hlb]; exact List.not_mem_nil
  have hnbr : ∀ a, a ∉ d.rhsBatch := fun a => by rw [hrb]; exact List.not_mem_nil
  have l0 : 0 ∈ d.lhsNonContracting := by rw [hln]; exact List.mem_cons_self
  have l1 : 1 ∈ d.lhsNonContracting := by rw [hln]; exact List.mem_cons_of_mem _ List.mem_cons_self
  have r1 : 1 ∈ d.rhsNonContracting := by rw [hrn]; exact List.mem_cons_self
  have hl : d.lhsIdx (ix3 b n h) ((contrEquiv1 d K hr hs).symm k) = ix3 b n k := by
    funext ax
    match ax with
    | ⟨0, _⟩ => exact Fin.ext (lhsIdx_val_free d (hnb _) l0 _ _ 0 (Nat.lt_of_sub_eq_succ rfl) (by rw [hlb, hln]; rfl))
    | ⟨1, _⟩ => exact Fin.ext (lhsIdx_val_free d (hnb _) l1 _ _ 1 (Nat.lt_of_sub_eq_succ rfl) (by rw [hlb, hln]; rfl))
    | ⟨2, _⟩ => exact Fin.ext ((d.lhsIdx_val_of_single hlc _ _).trans (contrEquiv1_symm_val d K hr hs k))
  have hrr : d.rhsIdx (ix3 b n h) ((contrEquiv1 d K hr hs).symm k) = ix2 k h := by
    funext ax
    match ax with
    | ⟨0, _⟩ => exact Fin.ext ((d.rhsIdx_val_of_single hrc _ _).trans (contrEquiv1_symm_val d K hr hs k))
    | ⟨1, _⟩ => exact Fin.ext (rhsIdx_val_free d (hnbr _) r1 _ _ 2 (Nat.lt_of_sub_eq_succ rfl) (by rw [hlb, hln, hrn]; rfl))
  rw [hl, hrr]

/-- Each graph's adjacency times that graph's rows: entry (b, n, h) is the sum over m of l (b, n, m) · r (b, m, h). -/
theorem sum_propagate {B N M H : Nat} (d : DotDims ⟨3, ![B, N, M]⟩ ⟨3, ![B, M, H]⟩ ⟨3, ![B, N, H]⟩)
    (hlb : d.lhsBatch = [0]) (hrb : d.rhsBatch = [0]) (hlc : d.lhsContracting = [2]) (hrc : d.rhsContracting = [1])
    (hln : d.lhsNonContracting = [1]) (hrn : d.rhsNonContracting = [2])
    (l : (⟨3, ![B, N, M]⟩ : Shape).Idx → EReal) (r : (⟨3, ![B, M, H]⟩ : Shape).Idx → EReal) (b : Fin B) (n : Fin N) (h : Fin H) :
    (∑ k : d.contr.Idx, l (d.lhsIdx (ix3 b n h) k) * r (d.rhsIdx (ix3 b n h) k)) = ∑ m : Fin M, l (ix3 b n m) * r (ix3 b m h) := by
  have hr : d.contr.rank = 1 := DotPlain.contr_rank_one d hlc
  have hs : d.contr.size ⟨0, by omega⟩ = M := DotPlain.contr_size_zero d hlc
  rw [← Equiv.sum_comp (contrEquiv1 d M hr hs).symm]
  refine Finset.sum_congr rfl fun k _ => ?_
  have lb0 : 0 ∈ d.lhsBatch := by rw [hlb]; exact List.mem_cons_self
  have rb0 : 0 ∈ d.rhsBatch := by rw [hrb]; exact List.mem_cons_self
  have l1 : 1 ∈ d.lhsNonContracting := by rw [hln]; exact List.mem_cons_self
  have r2 : 2 ∈ d.rhsNonContracting := by rw [hrn]; exact List.mem_cons_self
  have l1b : 1 ∉ d.lhsBatch := fun hm => by
    rw [hlb] at hm; exact absurd (congrArg Fin.val (List.mem_singleton.mp hm)) (Nat.succ_ne_zero 0)
  have r2b : 2 ∉ d.rhsBatch := fun hm => by
    rw [hrb] at hm; exact absurd (congrArg Fin.val (List.mem_singleton.mp hm)) (Nat.succ_ne_zero 1)
  have hl : d.lhsIdx (ix3 b n h) ((contrEquiv1 d M hr hs).symm k) = ix3 b n k := by
    funext ax
    match ax with
    | ⟨0, _⟩ => exact Fin.ext (lhsIdx_val_batch d lb0 _ _ 0 (Nat.lt_of_sub_eq_succ rfl) (by rw [hlb]; rfl))
    | ⟨1, _⟩ => exact Fin.ext (lhsIdx_val_free d l1b l1 _ _ 1 (Nat.lt_of_sub_eq_succ rfl) (by rw [hlb, hln]; rfl))
    | ⟨2, _⟩ => exact Fin.ext ((d.lhsIdx_val_of_single hlc _ _).trans (contrEquiv1_symm_val d M hr hs k))
  have hrr : d.rhsIdx (ix3 b n h) ((contrEquiv1 d M hr hs).symm k) = ix3 b k h := by
    funext ax
    match ax with
    | ⟨0, _⟩ => exact Fin.ext (rhsIdx_val_batch d rb0 _ _ 0 (Nat.lt_of_sub_eq_succ rfl) (by rw [hrb]; rfl))
    | ⟨1, _⟩ => exact Fin.ext ((d.rhsIdx_val_of_single hrc _ _).trans (contrEquiv1_symm_val d M hr hs k))
    | ⟨2, _⟩ => exact Fin.ext (rhsIdx_val_free d r2b r2 _ _ 2 (Nat.lt_of_sub_eq_succ rfl) (by rw [hlb, hln, hrn]; rfl))
  rw [hl, hrr]

/-- The feature product at an entry. -/
theorem dot_feature_apply (l : FVec Ideal S4x2048x512 .f32) (W : FVec Ideal S512x512 .f32) (b : Fin 4) (n : Fin 2048) (h : Fin 512) :
    Host.dotGeneral dot_S4x2048x512_S512x512_S4x2048x512_2_0_01_1_n_n none l W (ix3 b n h)
      = ∑ f : Fin 512, l (ix3 b n f) * W (ix2 f h) :=
  (Ideal.dotGeneral_apply _ none .single l W (ix3 b n h)).trans
    (sum_feature dot_S4x2048x512_S512x512_S4x2048x512_2_0_01_1_n_n rfl rfl rfl rfl rfl rfl l W b n h)

/-- The propagation along the adjacency at an entry. -/
theorem dot_propagate_apply (adj : FVec Ideal S4x2048x2048 .f32) (s : FVec Ideal S4x2048x512 .f32) (b : Fin 4) (n : Fin 2048) (h : Fin 512) :
    Host.dotGeneral dot_S4x2048x2048_S4x2048x512_S4x2048x512_2_1_1_2_0_0 none adj s (ix3 b n h)
      = ∑ m : Fin 2048, adj (ix3 b n m) * s (ix3 b m h) :=
  (Ideal.dotGeneral_apply _ none .single adj s (ix3 b n h)).trans
    (sum_propagate dot_S4x2048x2048_S4x2048x512_S4x2048x512_2_1_1_2_0_0 rfl rfl rfl rfl rfl rfl adj s b n h)

/-- The read-out product at an entry. -/
theorem dot_readout_apply (l : FVec Ideal S4x2048 .f32) (r : FVec Ideal S2048x128 .f32) (b : Fin 4) (c : Fin 128) :
    Host.dotGeneral dot_S4x2048_S2048x128_S4x128_1_0_0_1_n_n none l r (ix2 b c)
      = ∑ n : Fin 2048, l (ix2 b n) * r (ix2 n c) :=
  DotPlain.dotGeneral_rows_cols dot_S4x2048_S2048x128_S4x128_1_0_0_1_n_n rfl rfl rfl rfl rfl rfl none .single l r b c

/-! ## The stages of the row normalisation -/

/-- A scalar constant repeated over every row of every graph, kept with a unit last axis. -/
theorem scalar_rows_apply (c : BitVec 32) (j : S4x2048x1.Idx) :
    broadcastInDim S4x2048x1 ![] bcast_S_S4x2048x1 (constant (F := Ideal) S_ .f32 c) j = Ideal.ofBits .f32 c :=
  broadcastInDim_scalar_apply _ _ j

/-- A row's value kept with a unit last axis reads the row's value. -/
theorem unit_axis_apply (y : FVec Ideal S4x2048 .f32) (b : Fin 4) (n : Fin 2048) :
    broadcastInDim S4x2048x1 ![0, 1] bcast_S4x2048_S4x2048x1_0_1 y (ix3 b n (0 : Fin 1)) = y (ix2 b n) :=
  broadcastInDim_apply _ _ y (ix3 b n (0 : Fin 1)) (ix2 b n) (fun a => by
    match a with
    | ⟨0, _⟩ => rfl
    | ⟨1, _⟩ => rfl)

/-- A value per row repeated along the row's 512 entries reads the row's value. -/
theorem along_row_apply (y : FVec Ideal S4x2048x1 .f32) (b : Fin 4) (n : Fin 2048) (f : Fin 512) :
    broadcastInDim S4x2048x512 ![0, 1, 2] bcast_S4x2048x1_S4x2048x512_0_1_2 y (ix3 b n f) = y (ix3 b n (0 : Fin 1)) :=
  broadcastInDim_apply _ _ y (ix3 b n f) (ix3 b n (0 : Fin 1)) (fun a => by
    match a with
    | ⟨0, _⟩ => rfl
    | ⟨1, _⟩ => rfl
    | ⟨2, _⟩ => rfl)

/-- The mean of a row: its sum over 512. -/
theorem rowMean_apply (x : FVec Ideal S4x2048x512 .f32) (b : Fin 4) (n : Fin 2048) :
    RefTerm.rowMean (F := Ideal) x (ix3 b n (0 : Fin 1)) = Spec.rowMean (fun f => x (ix3 b n f)) := by
  have e : RefTerm.rowMean (F := Ideal) x (ix3 b n (0 : Fin 1))
      = Ideal.div (broadcastInDim S4x2048x1 ![0, 1] bcast_S4x2048_S4x2048x1_0_1 (RefTerm.rowSum x) (ix3 b n (0 : Fin 1)))
          (broadcastInDim S4x2048x1 ![] bcast_S_S4x2048x1 (constant (F := Ideal) S_ .f32 0x44000000#32) (ix3 b n (0 : Fin 1))) := rfl
  rw [e, unit_axis_apply, scalar_rows_apply, rowSum_apply]
  rfl

/-- An entry minus its row's mean. -/
theorem centred_apply (x : FVec Ideal S4x2048x512 .f32) (b : Fin 4) (n : Fin 2048) (f : Fin 512) :
    RefTerm.centred (F := Ideal) x (ix3 b n f) = x (ix3 b n f) - Spec.rowMean (fun f' => x (ix3 b n f')) := by
  have e : RefTerm.centred (F := Ideal) x (ix3 b n f)
      = x (ix3 b n f) - broadcastInDim S4x2048x512 ![0, 1, 2] bcast_S4x2048x1_S4x2048x512_0_1_2 (RefTerm.rowMean x) (ix3 b n f) := rfl
  rw [e, along_row_apply, rowMean_apply]

/-- With no degree of freedom taken off, the divisor 512 is positive, so the variance is the mean square deviation. -/
theorem rowVar_apply (x : FVec Ideal S4x2048x512 .f32) (b : Fin 4) (n : Fin 2048) :
    RefTerm.rowVar (F := Ideal) x (constantI S_ 32 0#32) (ix3 b n (0 : Fin 1))
      = Ideal.div (∑ f, (x (ix3 b n f) - Spec.rowMean (fun f' => x (ix3 b n f'))) * (x (ix3 b n f) - Spec.rowMean (fun f' => x (ix3 b n f'))))
          Spec.c512 := by
  have hdiv : FloatOps.subf (F := Ideal) (φ := .f32) Spec.c512 (FloatOps.sitofp (F := Ideal) .f32 (0#32 : BitVec 32)) = Spec.c512 := by
    rw [Spec.sitofp_zero, Spec.c512_sub_zero]
  have hc : FloatOps.cmpf (F := Ideal) (φ := .f32) .ogt
      (FloatOps.subf (F := Ideal) (φ := .f32) Spec.c512 (FloatOps.sitofp (F := Ideal) .f32 (0#32 : BitVec 32)))
      (Ideal.ofBits .f32 0x00000000#32) = 1#1 := by
    rw [hdiv, Spec.zero_bits, Spec.cmp_c512_pos]
  have e : RefTerm.rowVar (F := Ideal) x (constantI S_ 32 0#32) (ix3 b n (0 : Fin 1))
      = Scalar.select
          (FloatOps.cmpf (F := Ideal) (φ := .f32) .ogt
            (FloatOps.subf (F := Ideal) (φ := .f32) Spec.c512 (FloatOps.sitofp (F := Ideal) .f32 (0#32 : BitVec 32)))
            (Ideal.ofBits .f32 0x00000000#32))
          (Ideal.div
            (broadcastInDim S4x2048x1 ![0, 1] bcast_S4x2048_S4x2048x1_0_1
              (RefTerm.rowSum (mulf (RefTerm.centred x) (RefTerm.centred x))) (ix3 b n (0 : Fin 1)))
            (FloatOps.subf (F := Ideal) (φ := .f32) Spec.c512 (FloatOps.sitofp (F := Ideal) .f32 (0#32 : BitVec 32))))
          (Ideal.ofBits .f32 0x7FC00000#32) := rfl
  rw [e, hc, select_one, hdiv, unit_axis_apply, rowSum_apply]
  refine congrArg (fun s => Ideal.div s Spec.c512) (Finset.sum_congr rfl fun f _ => ?_)
  rw [mulf_apply, centred_apply]

/-- A length-512 vector repeated along every row reads the vector at the row position. -/
theorem alongRows_apply (g : FVec Ideal S512 .f32) (b : Fin 4) (n : Fin 2048) (f : Fin 512) :
    RefTerm.alongRows (F := Ideal) g (ix3 b n f) = g (ix1 f) := by
  have e1 : RefTerm.alongRows (F := Ideal) g (ix3 b n f)
      = broadcastInDim S1x1x512 ![2] bcast_S512_S1x1x512_2 g (ix3 (0 : Fin 1) (0 : Fin 1) f) :=
    broadcastInDim_apply _ _ _ (ix3 b n f) (ix3 (0 : Fin 1) (0 : Fin 1) f) (fun a => by
      match a with
      | ⟨0, _⟩ => rfl
      | ⟨1, _⟩ => rfl
      | ⟨2, _⟩ => rfl)
  rw [e1]
  exact broadcastInDim_apply _ _ g (ix3 (0 : Fin 1) (0 : Fin 1) f) (ix1 f) (fun a => by
    match a with
    | ⟨0, _⟩ => rfl)

/-- The normalisation at an entry, with the square root as a divisor. -/
theorem layerNorm_apply_sqrt (x : FVec Ideal S4x2048x512 .f32) (g c : FVec Ideal S512 .f32) (b : Fin 4) (n : Fin 2048) (f : Fin 512) :
    RefTerm.layerNorm (F := Ideal) x g c (ix3 b n f)
      = Spec.lnR (fun f' => x (ix3 b n f')) (fun f' => g (ix1 f')) (fun f' => c (ix1 f')) f := by
  have e : RefTerm.layerNorm (F := Ideal) x g c (ix3 b n f)
      = Ideal.div (RefTerm.alongRows g (ix3 b n f) * RefTerm.centred x (ix3 b n f))
          (broadcastInDim S4x2048x512 ![0, 1, 2] bcast_S4x2048x1_S4x2048x512_0_1_2
            (Host.sqrt (addf (RefTerm.rowVar x (constantI S_ 32 0#32))
              (broadcastInDim S4x2048x1 ![] bcast_S_S4x2048x1 (constant S_ .f32 0x3727C5AC#32)))) (ix3 b n f))
        + RefTerm.alongRows c (ix3 b n f) := rfl
  rw [e, along_row_apply, alongRows_apply, alongRows_apply, centred_apply]
  have e2 : Host.sqrt (addf (RefTerm.rowVar (F := Ideal) x (constantI S_ 32 0#32))
        (broadcastInDim S4x2048x1 ![] bcast_S_S4x2048x1 (constant S_ .f32 0x3727C5AC#32))) (ix3 b n (0 : Fin 1))
      = Ideal.sqrt (RefTerm.rowVar (F := Ideal) x (constantI S_ 32 0#32) (ix3 b n (0 : Fin 1))
          + broadcastInDim S4x2048x1 ![] bcast_S_S4x2048x1 (constant (F := Ideal) S_ .f32 0x3727C5AC#32) (ix3 b n (0 : Fin 1))) := rfl
  rw [e2, rowVar_apply, scalar_rows_apply]
  rfl

/-- The normalisation at an entry, with the inverse square root as a factor. -/
theorem layerNorm_apply (x : FVec Ideal S4x2048x512 .f32) (g c : FVec Ideal S512 .f32) (b : Fin 4) (n : Fin 2048) (f : Fin 512) :
    RefTerm.layerNorm (F := Ideal) x g c (ix3 b n f)
      = Spec.lnK (fun f' => x (ix3 b n f')) (fun f' => g (ix1 f')) (fun f' => c (ix1 f')) f :=
  (layerNorm_apply_sqrt x g c b n f).trans (Spec.lnR_eq_lnK _ _ _ f)

/-- The positive part at an entry. -/
theorem relu_apply (x : FVec Ideal S4x2048x512 .f32) (j : S4x2048x512.Idx) :
    RefTerm.relu (F := Ideal) x j = max (x j) 0 := by
  have e : RefTerm.relu (F := Ideal) x j
      = max (x j) (broadcastInDim S4x2048x512 ![] bcast_S_S4x2048x512 (constant (F := Ideal) S_ .f32 0x00000000#32) j) := rfl
  rw [e, broadcastInDim_scalar_apply]
  exact congrArg (max (x j)) Spec.zero_bits

/-! ## A layer, and the whole result -/

/-- One layer at an entry, for any reading X of its input: the propagated feature product of the normalised rows,
    positive part taken. -/
theorem layer_apply (x : FVec Ideal S4x2048x512 .f32) (adj : FVec Ideal S4x2048x2048 .f32) (g c : FVec Ideal S512 .f32)
    (W : FVec Ideal S512x512 .f32) (X : Fin 4 → Fin 2048 → Fin 512 → EReal) (hx : ∀ b n f, x (ix3 b n f) = X b n f)
    (b : Fin 4) (n : Fin 2048) (h : Fin 512) :
    RefTerm.layer (F := Ideal) x adj g c W (ix3 b n h)
      = max (∑ m, adj (ix3 b n m) * ∑ f, Spec.lnK (X b m) (fun f' => g (ix1 f')) (fun f' => c (ix1 f')) f * W (ix2 f h)) 0 := by
  have e : RefTerm.layer (F := Ideal) x adj g c W (ix3 b n h)
      = RefTerm.relu (Host.dotGeneral dot_S4x2048x2048_S4x2048x512_S4x2048x512_2_1_1_2_0_0 none adj
          (Host.dotGeneral dot_S4x2048x512_S512x512_S4x2048x512_2_0_01_1_n_n none (RefTerm.layerNorm x g c) W)) (ix3 b n h) := rfl
  rw [e, relu_apply, dot_propagate_apply]
  refine congrArg (fun s => max s 0) (Finset.sum_congr rfl fun m _ => congrArg (adj (ix3 b n m) * ·) ?_)
  rw [dot_feature_apply]
  refine Finset.sum_congr rfl fun f _ => congrArg (· * W (ix2 f h)) ?_
  rw [layerNorm_apply]
  exact congrArg (fun r => Spec.lnK r (fun f' => g (ix1 f')) (fun f' => c (ix1 f')) f) (funext fun f' => hx b m f')

/-- The bias repeated over the four graphs reads the bias at the column. -/
theorem bias_apply (a9 : FVec Ideal S128 .f32) (b : Fin 4) (l : Fin 128) :
    broadcastInDim S4x128 ![0, 1] bcast_S1x128_S4x128_0_1 (broadcastInDim S1x128 ![1] bcast_S128_S1x128_1 a9) (ix2 b l)
      = a9 (ix1 l) := by
  have e1 : broadcastInDim S4x128 ![0, 1] bcast_S1x128_S4x128_0_1 (broadcastInDim S1x128 ![1] bcast_S128_S1x128_1 a9) (ix2 b l)
      = broadcastInDim S1x128 ![1] bcast_S128_S1x128_1 a9 (ix2 (0 : Fin 1) l) :=
    broadcastInDim_apply _ _ _ (ix2 b l) (ix2 (0 : Fin 1) l) (fun a => by
      match a with
      | ⟨0, _⟩ => rfl
      | ⟨1, _⟩ => rfl)
  rw [e1]
  exact broadcastInDim_apply _ _ a9 (ix2 (0 : Fin 1) l) (ix1 l) (fun a => by
    match a with
    | ⟨0, _⟩ => rfl)

/-- The reference's result is the specification, index by index. -/
theorem refTerm_eq (a0 : FVec Ideal S4x2048x512 .f32) (a1 : FVec Ideal S4x2048x2048 .f32) (a2 a3 : FVec Ideal S512 .f32)
    (a4 : FVec Ideal S512x512 .f32) (a5 a6 : FVec Ideal S512 .f32) (a7 : FVec Ideal S512x512 .f32)
    (a8 : FVec Ideal S2048x128 .f32) (a9 : FVec Ideal S128 .f32) :
    RefTerm.refTerm (F := Ideal) a0 a1 a2 a3 a4 a5 a6 a7 a8 a9 = Cert.Spec.specOut a0 a1 a2 a3 a4 a5 a6 a7 a8 a9 := by
  funext j
  obtain ⟨b, l, rfl⟩ : ∃ (b : Fin 4) (l : Fin 128), j = ix2 b l := ⟨j 0, j 1, eq_ix2 j⟩
  -- the first layer is the specification's first hidden array
  have h1 : ∀ b n h, RefTerm.layer (F := Ideal) a0 a1 a2 a3 a4 (ix3 b n h)
      = Spec.h1 (fun b n f => a0 (ix3 b n f)) (fun b n m => a1 (ix3 b n m)) (fun f => a2 (ix1 f)) (fun f => a3 (ix1 f))
          (fun f h => a4 (ix2 f h)) b n h :=
    fun b n h => layer_apply a0 a1 a2 a3 a4 (fun b n f => a0 (ix3 b n f)) (fun _ _ _ => rfl) b n h
  -- the second layer, over the first, is its second hidden array
  have h2 : ∀ b n k, RefTerm.layer (F := Ideal) (RefTerm.layer a0 a1 a2 a3 a4) a1 a5 a6 a7 (ix3 b n k)
      = Spec.h2 (fun b n f => a0 (ix3 b n f)) (fun b n m => a1 (ix3 b n m)) (fun f => a2 (ix1 f)) (fun f => a3 (ix1 f))
          (fun f h => a4 (ix2 f h)) (fun f => a5 (ix1 f)) (fun f => a6 (ix1 f)) (fun h k => a7 (ix2 h k)) b n k :=
    fun b n k => layer_apply (RefTerm.layer a0 a1 a2 a3 a4) a1 a5 a6 a7 _ h1 b n k
  -- each node's feature sum
  have hs : ∀ b n, RefTerm.rowSum (F := Ideal) (RefTerm.layer (RefTerm.layer a0 a1 a2 a3 a4) a1 a5 a6 a7) (ix2 b n)
      = Spec.src (fun b n f => a0 (ix3 b n f)) (fun b n m => a1 (ix3 b n m)) (fun f => a2 (ix1 f)) (fun f => a3 (ix1 f))
          (fun f h => a4 (ix2 f h)) (fun f => a5 (ix1 f)) (fun f => a6 (ix1 f)) (fun h k => a7 (ix2 h k)) b n :=
    fun b n => (rowSum_apply _ b n).trans (Finset.sum_congr rfl fun k _ => h2 b n k)
  have e : RefTerm.refTerm (F := Ideal) a0 a1 a2 a3 a4 a5 a6 a7 a8 a9 (ix2 b l)
      = Host.dotGeneral dot_S4x2048_S2048x128_S4x128_1_0_0_1_n_n none
          (RefTerm.rowSum (RefTerm.layer (RefTerm.layer a0 a1 a2 a3 a4) a1 a5 a6 a7)) a8 (ix2 b l)
        + broadcastInDim S4x128 ![0, 1] bcast_S1x128_S4x128_0_1 (broadcastInDim S1x128 ![1] bcast_S128_S1x128_1 a9) (ix2 b l) := rfl
  rw [e, dot_readout_apply, bias_apply]
  show _ = Spec.out (fun b n f => a0 (ix3 b n f)) (fun b n m => a1 (ix3 b n m)) (fun f => a2 (ix1 f)) (fun f => a3 (ix1 f))
      (fun f h => a4 (ix2 f h)) (fun f => a5 (ix1 f)) (fun f => a6 (ix1 f)) (fun h k => a7 (ix2 h k))
      (fun n l => a8 (ix2 n l)) (fun l => a9 (ix1 l)) b l
  unfold Spec.out
  exact congrArg (· + a9 (ix1 l)) (Finset.sum_congr rfl fun n _ => congrArg (· * a8 (ix2 n l)) (hs b n))

end Cert.ReferenceIdeal.RefValue

end
-- ==== Proof.lean ====
/- The certificate of a fused graph-convolution forward pass against its plain reference.

   The kernel runs a grid of four graphs by four slabs of 512 adjacency rows. At a graph's first slab it normalises the
   graph's 2048 × 512 feature rows, multiplies by the first weight and keeps that product in a scratch buffer; at every
   slab it keeps the adjacency slab in a second scratch buffer, propagates the first product along the slab, takes the
   positive part, normalises, multiplies by the second weight and keeps those 512 rows of the second product in a third
   scratch buffer; at the last slab it propagates the whole second product along the whole kept adjacency, takes the
   positive part, sums each node's features, multiplies the 2048 sums by the read-out weight and adds the bias: one
   row of 128 per graph. The reference does the same on whole arrays with host operations.

   The frames of the two kernel programs are one text read at both instances: a triple of the body for each of the
   three control cases (first, middle, last slab of a graph), and an invariant carried from grid point to grid point
   saying which rows of the scratch buffers already hold the current graph's values. At the extended reals every
   change of float format is the identity, so the kernel's read-out row is, index by index, the same nest of sums
   the reference computes; the one place the two differ is the row normalisation, where the kernel multiplies by an
   inverse square root and the reference divides by a square root: the argument of the root is a mean of squares plus
   a positive constant, hence positive (possibly infinite), and there the two agree on every extended real. -/
import proofs.«110909_g27616639713710_cont_9to1_58_32_alg».proof.Defs
import proofs.«110909_g27616639713710_cont_9to1_58_32_alg».proof.Proof.Gen.Kernel
import proofs.«110909_g27616639713710_cont_9to1_58_32_alg».proof.Proof.Gen.KernelIdeal
import proofs.«110909_g27616639713710_cont_9to1_58_32_alg».proof.Proof.Gen.ReferenceIdeal
import proofs.«110909_g27616639713710_cont_9to1_58_32_alg».proof.Proof.Gen.Pre_finite_inputs
import proofs.«110909_g27616639713710_cont_9to1_58_32_alg».proof.Proof.K.Body
import proofs.«110909_g27616639713710_cont_9to1_58_32_alg».proof.Proof.KI.Body
import proofs.«110909_g27616639713710_cont_9to1_58_32_alg».proof.Proof.KI.Final
import proofs.«110909_g27616639713710_cont_9to1_58_32_alg».proof.Proof.Ref.Run
import proofs.«110909_g27616639713710_cont_9to1_58_32_alg».proof.Proof.Ref.Value
import proofs.«110909_g27616639713710_cont_9to1_58_32_alg».proof.Proof.Spec

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Hand.frame m ρ

/-- So does the kernel program read at the extended reals. -/
theorem frame_ki : Cert.frame_KernelIdeal := fun m ρ _ => Cert.KernelIdeal.Hand.frame m ρ

/-- The reference is host operations only: its run read back, the result dropped. -/
theorem frame_r : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the specification of their (agreeing) arguments as result. -/
theorem algebraic : Cert.algebraic_KernelIdeal_ReferenceIdeal := by
  intro m ρ m' ρ' _ hagree
  refine ⟨fun c => Cert.Spec.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Hand.value_run m ρ (Cert.KernelIdeal.Hand.run_main m ρ), ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
